-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S4x4096 : Shape := ⟨2, ![4, 4096]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S4x4096 : S_.BroadcastsInDim S4x4096 (![] : Fin 0 → Fin S4x4096.rank)
  reducesTo_S4x4096_S_d0_1 : S4x4096.ReducesTo [0, 1] S_

variable [Facts]

def fn {F : FTy → Type} [FloatOps F] (main_arg0 : FVec F S4x4096x3 .f32) (main_arg1 : FVec F S4x4096 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096 .f32 := Host.absf main_arg1
  let main_cst_0 : FVec F S_ .f32 := constant S_ .f32 0x7F800000#32
  let main_v5 : FVec F S4x4096 .f32 := broadcastInDim S4x4096 ![] bcast_S_S4x4096 main_cst_0
  let main_v6 : IVec S4x4096 1 := cmpf .olt main_v4 main_v5
  let main_c_1 : IVec S_ 1 := constantI S_ 1 1#1
  let main_v7 : IVec S_ 1 := (fun x v => Host.reduce IntOp.andi x v reducesTo_S4x4096_S_d0_1 h_S_) main_v6 main_c_1
  let main_v8 : IVec S_ 1 := andi main_v3 main_v7
  main_v8
-- ==== Kernel.lean ====
abbrev S4x4096x3 : Shape := ⟨3, ![4, 4096, 3]⟩
abbrev S4x4096 : Shape := ⟨2, ![4, 4096]⟩
abbrev S4x4096x1 : Shape := ⟨3, ![4, 4096, 1]⟩
abbrev S4x1x4096 : Shape := ⟨3, ![4, 1, 4096]⟩
abbrev S1x512x1 : Shape := ⟨3, ![1, 512, 1]⟩
abbrev S1x1x512 : Shape := ⟨3, ![1, 1, 512]⟩
abbrev S512x1 : Shape := ⟨2, ![512, 1]⟩
abbrev S1x512 : Shape := ⟨2, ![1, 512]⟩
abbrev S512x512 : Shape := ⟨2, ![512, 512]⟩
abbrev S512 : Shape := ⟨1, ![512]⟩

abbrev nBuf : Space → Nat
  | .hbm => 20
  | .vmem => 25
  | .smem => 0
  | _ => 0

abbrev bufTy : (tb : Table) → Fin (tcTables nBuf tb) → BufTy
  | .hbm, ⟨0, _⟩ => ⟨S4x4096x3, .f32⟩
  | .hbm, ⟨1, _⟩ => ⟨S4x4096, .f32⟩
  | .hbm, ⟨2, _⟩ => ⟨S4x4096x1, .f32⟩
  | .hbm, ⟨3, _⟩ => ⟨S4x4096, .f32⟩
  | .hbm, ⟨4, _⟩ => ⟨S4x4096x1, .f32⟩
  | .hbm, ⟨5, _⟩ => ⟨S4x4096, .f32⟩
  | .hbm, ⟨6, _⟩ => ⟨S4x4096x1, .f32⟩
  | .hbm, ⟨7, _⟩ => ⟨S4x4096, .f32⟩
  | .hbm, ⟨8, _⟩ => ⟨S4x4096x1, .f32⟩
  | .hbm, ⟨9, _⟩ => ⟨S4x4096x1, .f32⟩
  | .hbm, ⟨10, _⟩ => ⟨S4x4096x1, .f32⟩
  | .hbm, ⟨11, _⟩ => ⟨S4x1x4096, .f32⟩
  | .hbm, ⟨12, _⟩ => ⟨S4x1x4096, .f32⟩
  | .hbm, ⟨13, _⟩ => ⟨S4x1x4096, .f32⟩
  | .hbm, ⟨14, _⟩ => ⟨S4x4096x1, .f32⟩
  | .hbm, ⟨15, _⟩ => ⟨S4x1x4096, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x3, .f32⟩
  | .local _ .vmem, ⟨0, _⟩ => ⟨S1x512x1, .f32⟩
  | .local _ .vmem, ⟨1, _⟩ => ⟨S1x512x1, .f32⟩
  | .local _ .vmem, ⟨2, _⟩ => ⟨S1x512x1, .f32⟩
  | .local _ .vmem, ⟨3, _⟩ => ⟨S1x512x1, .f32⟩
  | .local _ .vmem, ⟨4, _⟩ => ⟨S1x512x1, .f32⟩
  | .local _ .vmem, ⟨5, _⟩ => ⟨S1x512x1, .f32⟩
  | .local _ .vmem, ⟨6, _⟩ => ⟨S1x512x1, .f32⟩
  | .local _ .vmem, ⟨7, _⟩ => ⟨S1x512x1, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x512x1, .f32⟩
  | .local _ .vmem, ⟨17, _⟩ => ⟨S1x512x1, .f32⟩
  | .local _ .vmem, ⟨18, _⟩ => ⟨S1x512x1, .f32⟩
  | .local _ .vmem, ⟨19, _⟩ => ⟨S1x512x1, .f32⟩
  | .local _ .vmem, ⟨20, _⟩ => ⟨S1x512x1, .f32⟩
  | .local _ .vmem, ⟨21, _⟩ => ⟨S1x512x1, .f32⟩
  | .local _ .vmem, ⟨22, _⟩ => ⟨S512x1, .f32⟩
  | .local _ .vmem, ⟨23, _⟩ => ⟨S512x1, .f32⟩
  | .local _ .vmem, ⟨24, _⟩ => ⟨S512x1, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14_0 : Ref sig .tc := ⟨.hbm, 16, rfl⟩
abbrev main_v14_1 : Ref sig .tc := ⟨.hbm, 17, rfl⟩
abbrev main_v14_2 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v84 : BitVec 1 := Scalar.cmpi .eq arg2 c7_i32
  let v85 : BitVec 32 := Scalar.extui v84
  let c0_i32_49 : BitVec 32 := 0#32
  let v86 : BitVec 1 := Scalar.cmpi .ne v85 c0_i32_49
  v86

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1x512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

class Facts₀ : Prop where
  slices_S4x4096x3_S4x4096x1_0_0_0 : S4x4096x3.Slices ![0, 0, 0] S4x4096x1
  shapeCasts_S4x4096x1_S4x4096 : S4x4096x1.ShapeCasts S4x4096
  slices_S4x4096x3_S4x4096x1_0_0_1 : S4x4096x3.Slices ![0, 0, 1] S4x4096x1
  slices_S4x4096x3_S4x4096x1_0_0_2 : S4x4096x3.Slices ![0, 0, 2] S4x4096x1
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  shapeCasts_S512x1_S1x512x1 : S512x1.ShapeCasts S1x512x1
  concatenates_S4x4096x1_S4x4096x1_S4x4096x1_S4x4096x3_d2 : Shape.Concatenates [S4x4096x1, S4x4096x1, S4x4096x1] S4x4096x3 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1.size a ≤ S4x4096x1.size a
  hwx0_0 : ∀ i : grid0.Coords, EltTy.bits .f32 = 32 ∨ (Rect.block (s := S4x4096x1) S1x512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S4x4096x1.size a
  hwx0_1 : ∀ i : grid0.Coords, EltTy.bits .f32 = 32 ∨ (Rect.block (s := S4x4096x1) S1x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S4x4096x1.size a
  hwx0_2 : ∀ i : grid0.Coords, EltTy.bits .f32 = 32 ∨ (Rect.block (s := S4x4096x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S4x4096x1.size a
  hwx0_3 : ∀ i : grid0.Coords, EltTy.bits .f32 = 32 ∨ (Rect.block (s := S4x4096x1) S1x512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S4x1x4096.size a
  hwx0_4 : ∀ i : grid0.Coords, EltTy.bits .f32 = 32 ∨ (Rect.block (s := S4x1x4096) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S4x1x4096.size a
  hwx0_5 : ∀ i : grid0.Coords, EltTy.bits .f32 = 32 ∨ (Rect.block (s := S4x1x4096) S1x1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512.size a ≤ S4x1x4096.size a
  hwx0_6 : ∀ i : grid0.Coords, EltTy.bits .f32 = 32 ∨ (Rect.block (s := S4x1x4096) S1x1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x512.size a ≤ S4x1x4096.size a
  hwx0_7 : ∀ i : grid0.Coords, EltTy.bits .f32 = 32 ∨ (Rect.block (s := S4x1x4096) S1x1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1.size a ≤ S4x4096x1.size a
  hwx0_8 : ∀ i : grid0.Coords, EltTy.bits .f32 = 32 ∨ (Rect.block (s := S4x4096x1) S1x512x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1.size a ≤ S4x4096x1.size a
  hwx0_9 : ∀ i : grid0.Coords, EltTy.bits .f32 = 32 ∨ (Rect.block (s := S4x4096x1) S1x512x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x1.size a ≤ S4x4096x1.size a
  hwx0_10 : ∀ i : grid0.Coords, EltTy.bits .f32 = 32 ∨ (Rect.block (s := S4x4096x1) S1x512x1.size (cc0_transform_10 i) (hinb0_10 i)).WholeWords (EltTy.packing .f32)

variable [Facts₀]

abbrev win0_0 : Pipeline.Window sig grid0 :=
  Pipeline.Window.ofSpec (Memref.whole main_v6) S1x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14_0) S1x512x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14_1) S1x512x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v14_2) S1x512x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | 10 => fun i => !(k0_cond2 i == 1#1) | ⟨_ + 11, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S4x4096 : Shape := ⟨2, ![4, 4096]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4x4096x4096x1 : Shape := ⟨4, ![4, 4096, 4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096, .f32⟩
  | .hbm, ⟨2, _⟩ => ⟨S4x4096x1x3, .f32⟩
  | .hbm, ⟨3, _⟩ => ⟨S4x1x4096x3, .f32⟩
  | .hbm, ⟨4, _⟩ => ⟨S4x4096x4096x3, .f32⟩
  | .hbm, ⟨5, _⟩ => ⟨S4x4096x4096x3, .f32⟩
  | .hbm, ⟨6, _⟩ => ⟨S4x4096x4096x3, .f32⟩
  | .hbm, ⟨7, _⟩ => ⟨S4x4096x4096x3, .f32⟩
  | .hbm, ⟨8, _⟩ => ⟨S_, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .i1⟩
  | .hbm, ⟨13, _⟩ => ⟨S_, .f32⟩
  | .hbm, ⟨14, _⟩ => ⟨S4x4096x4096, .f32⟩
  | .hbm, ⟨15, _⟩ => ⟨S4x4096x4096, .i1⟩
  | .hbm, ⟨16, _⟩ => ⟨S_, .f32⟩
  | .hbm, ⟨17, _⟩ => ⟨S_, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x1, .f32⟩
  | .hbm, ⟨26, _⟩ => ⟨S4x1x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S_, .f32⟩
  | .hbm, ⟨35, _⟩ => ⟨S4x4096x4096, .f32⟩
  | .hbm, ⟨36, _⟩ => ⟨S4x4096x4096, .f32⟩
  | .hbm, ⟨37, _⟩ => ⟨S4x4096x4096x1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4x4096x4096x3, .f32⟩
  | .hbm, ⟨42, _⟩ => ⟨S4x4096x4096x3, .f32⟩
  | .hbm, ⟨43, _⟩ => ⟨S_, .f32⟩
  | .hbm, ⟨44, _⟩ => ⟨S4x4096x4096x3, .f32⟩
  | .hbm, ⟨45, _⟩ => ⟨S4x4096x4096x3, .f32⟩
  | .hbm, ⟨46, _⟩ => ⟨S4x4096x4096x3, .f32⟩
  | .hbm, ⟨47, _⟩ => ⟨S4x4096x4096x3, .f32⟩
  | .hbm, ⟨48, _⟩ => ⟨S_, .f32⟩
  | .hbm, ⟨49, _⟩ => ⟨S4x4096x3, .f32⟩
  | .hbm, ⟨50, _⟩ => ⟨S_, .f32⟩
  | .hbm, ⟨51, _⟩ => ⟨S4x4096x3, .f32⟩
  | .hbm, ⟨52, _⟩ => ⟨S4x4096x3, .f32⟩
  | .hbm, ⟨53, _⟩ => ⟨S_, .f32⟩
  | .hbm, ⟨54, _⟩ => ⟨S4x4096x3, .f32⟩
  | .hbm, ⟨55, _⟩ => ⟨S4x4096x3, .f32⟩
  | .hbm, ⟨56, _⟩ => ⟨S4x4096x3, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call2_cst : Ref sig .tc := ⟨.hbm, 34, rfl⟩
abbrev main_call2_v0 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_cst_6 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_cst_8 : Ref sig .tc := ⟨.hbm, 50, rfl⟩
abbrev main_v28 : Ref sig .tc := ⟨.hbm, 51, rfl⟩
abbrev main_v29 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩

abbrev nD : Nat := 1
abbrev τ : Topo := Topo.v7x

variable {F : FTy → Type} [FloatOps F]

class Facts₀ : Prop where
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  bcast_S_S4x4096x4096 : S_.BroadcastsInDim S4x4096x4096 (![] : Fin 0 → Fin S4x4096x4096.rank)
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S4x4096x4096_S4x4096x4096x1_0_1_2 : S4x4096x4096.BroadcastsInDim S4x4096x4096x1 (![0, 1, 2] : Fin 3 → Fin S4x4096x4096x1.rank)
  bcast_S_S4x4096x4096x3 : S_.BroadcastsInDim S4x4096x4096x3 (![] : Fin 0 → Fin S4x4096x4096x3.rank)
  bcast_S4x4096x4096x1_S4x4096x4096x3_0_1_2_3 : S4x4096x4096x1.BroadcastsInDim S4x4096x4096x3 (![0, 1, 2, 3] : Fin 4 → Fin S4x4096x4096x3.rank)
  reducesTo_S4x4096x4096x3_S4x4096x3_d2 : S4x4096x4096x3.ReducesTo [2] S4x4096x3
  bcast_S_S4x4096x3 : S_.BroadcastsInDim S4x4096x3 (![] : Fin 0 → Fin S4x4096x3.rank)

variable [Facts₀]

class Facts : Prop extends Facts₀ where

variable [Facts]
-- ==== Proof.FrameKernel.Common.lean ====
/-
  The kernel program around its one pipelined region: what the region finds in memory after the slices, reshapes and
  broadcasts that come before it, the concatenation that comes after it, each window's block at a grid point, the two
  conditions the body branches on in closed form over the 256 grid points (4 batches × 8 query tiles × 8 key tiles, the key
  tile innermost: the first condition holds where the key tile is the first, the second where it is the last), where
  the three output windows are idle, and the memrefs the body is called on.
-/
import proofs.«155617_j67714454389373_1_alg».proof.Proof.Gen.Kernel.Launch
import proofs.«155617_j67714454389373_1_alg».proof.Proof.Gen.Kernel.Skeleton
import proofs.«155617_j67714454389373_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: after the fourteen host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host prefix, the region, and the concatenation continued after the region. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The concatenation touches unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes only its own result, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the kernel writes `main_arg0`: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the concatenation after it: `main_arg0` ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the kernel writes `main_arg1`: the kernel finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the concatenation after it: `main_arg1` ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region's launch -/

/-- For any proof data whose arrays are the region-entry contents, a run to the launch's post read at the two argument
    arrays (neither is a window's array: each ends as the concatenation leaves it, which is as launched) is the frame claim. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c))⟩) h

/-! ## The body's two branch conditions -/

/-- The first condition (the accumulators are reset): the key tile's coordinate is zero. -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second condition (the outputs are written): the key tile is the last. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Where the second condition fails the body stores nothing into output 8, and the pipeline does not write it back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- Where it holds the body stores output 8's whole block. -/
theorem liveAt0_8 : ∀ t : Fin cfg0.N, cond0_1 (grid0.coords t) → cfg0.idle 8 (grid0.coords t) = false := by decide +kernel
/-- Where the second condition fails the body stores nothing into output 9, and the pipeline does not write it back. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
/-- Where it holds the body stores output 9's whole block. -/
theorem liveAt0_9 : ∀ t : Fin cfg0.N, cond0_1 (grid0.coords t) → cfg0.idle 9 (grid0.coords t) = false := by decide +kernel
/-- Where the second condition fails the body stores nothing into output 10, and the pipeline does not write it back. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
/-- Where it holds the body stores output 10's whole block. -/
theorem liveAt0_10 : ∀ t : Fin cfg0.N, cond0_1 (grid0.coords t) → cfg0.idle 10 (grid0.coords t) = false := by decide +kernel

/-! ## The memrefs the body is called on -/

/-- One staging buffer of output window 8, through which its contents are stated. -/
abbrev VO0_8 : View sig .tc .vmem S1x512x1 .f32 := (Memref.whole cc0_stg8_0 : Memref sig .tc .vmem S1x512x1 .f32).view
/-- One staging buffer of output window 9, through which its contents are stated. -/
abbrev VO0_9 : View sig .tc .vmem S1x512x1 .f32 := (Memref.whole cc0_stg9_0 : Memref sig .tc .vmem S1x512x1 .f32).view
/-- One staging buffer of output window 10, through which its contents are stated. -/
abbrev VO0_10 : View sig .tc .vmem S1x512x1 .f32 := (Memref.whole cc0_stg10_0 : Memref sig .tc .vmem S1x512x1 .f32).view
abbrev ms0_0 (t : Fin cfg0.N) : Memref sig .tc .vmem S1x512x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x1 .f32 := win0_10.stage (cfg0.slots t 10)
abbrev hs0_10 (t : Fin cfg0.N) : (ms0_10 t).IsWhole := hstage0_10 ((cfg0.slots t 10).cast nbuf0_10)
/-- The three scratch accumulators: whole scoped buffers of the kernel's own. -/
abbrev scM0_0 : Memref sig .tc .vmem S512x1 .f32 := Memref.whole cc0_scratch0
abbrev VS0_0 : View sig .tc .vmem S512x1 .f32 := scM0_0.view
abbrev scM0_1 : Memref sig .tc .vmem S512x1 .f32 := Memref.whole cc0_scratch1
abbrev VS0_1 : View sig .tc .vmem S512x1 .f32 := scM0_1.view
abbrev scM0_2 : Memref sig .tc .vmem S512x1 .f32 := Memref.whole cc0_scratch2
abbrev VS0_2 : View sig .tc .vmem S512x1 .f32 := scM0_2.view

/-- What the launch hands the region besides the windows: the three scratch buffers at some contents, and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Fr

end
-- ==== Proof.FrameKernel.RunA.lean ====
/-
  The kernel body run once, at a grid point where the key tile is the first of its row of the grid (the accumulators are reset) and not the last: on whole staging memrefs holding the eight input
  blocks, the three output buffers handed back as they came, the three accumulators at anything, it runs to the end
  with the inputs as they were and each accumulator with the body's stores written.  The stored pieces are found by
  running the body; later modules read them back.
-/
import proofs.«155617_j67714454389373_1_alg».proof.Proof.FrameKernel.Common

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) :
    Σ' (LS0 : List (View.Piece (Elt F) S512x1 .f32)) (LS1 : List (View.Piece (Elt F) S512x1 .f32)), { LS2 : List (View.Piece (Elt F) S512x1 .f32) //
      ∀ (xi8 xi9 xi10 : Vec F S1x512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xi9 ∗ owns (c : Thread nD τ) arg13 fullShare xi10 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xi9 ∗ owns (c : Thread nD τ) arg13 fullShare xi10 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2)) -∗ K ⟨⟩))
          ⊢ wp frame (wpE (defs₀ (F := F)) Variants.none c none) E (cc0_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun xi8 xi9 xi10 E K => ?run⟩
  case run =>
    simp only [cc0_kernel_eq_skeleton]; unfold cc0_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [HS0]; · iexists _; iexact HS0
    isplitl [HS1]; · iexists _; iexact HS1
    iexists _; iexact HS2

end Cert.Kernel.Fr

end
-- ==== Proof.FrameKernel.RunB.lean ====
/-
  The kernel body run once, at a grid point where the key tile is neither the first nor the last: on whole staging memrefs holding the eight input
  blocks, the three output buffers handed back as they came, the three accumulators at what the point before left, it runs to the end
  with the inputs as they were and each accumulator with the body's stores written.  The stored pieces are found by
  running the body; later modules read them back.
-/
import proofs.«155617_j67714454389373_1_alg».proof.Proof.FrameKernel.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) :
    Σ' (LS0 : List (View.Piece (Elt F) S512x1 .f32)) (LS1 : List (View.Piece (Elt F) S512x1 .f32)), { LS2 : List (View.Piece (Elt F) S512x1 .f32) //
      ∀ (xi8 xi9 xi10 : Vec F S1x512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xi9 ∗ owns (c : Thread nD τ) arg13 fullShare xi10 ∗ owns (c : Thread nD τ) arg14 fullShare xs0 ∗ owns (c : Thread nD τ) arg15 fullShare xs1 ∗ owns (c : Thread nD τ) arg16 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xi9 ∗ owns (c : Thread nD τ) arg13 fullShare xi10 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2)) -∗ K ⟨⟩))
          ⊢ wp frame (wpE (defs₀ (F := F)) Variants.none c none) E (cc0_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun xi8 xi9 xi10 E K => ?run⟩
  case run =>
    simp only [cc0_kernel_eq_skeleton]; unfold cc0_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hfs0; obtain rfl := harg15.eq_unread hfs1; obtain rfl := harg16.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [HS0]; · iexists _; iexact HS0
    isplitl [HS1]; · iexists _; iexact HS1
    iexists _; iexact HS2

end Cert.Kernel.Fr

end
-- ==== Proof.FrameKernel.RunC.lean ====
/-
  The kernel body run once, at a grid point where the key tile is the last (the outputs are written) and not the first: on whole staging memrefs holding the eight input
  blocks, the three output buffers at anything, the three accumulators at what the point before left, it runs to the end
  with the inputs as they were, each output buffer with the body's store written and each accumulator with the body's stores written.  The stored pieces are found by
  running the body; later modules read them back.
-/
import proofs.«155617_j67714454389373_1_alg».proof.Proof.FrameKernel.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) :
    Σ' (L8 : List (View.Piece (Elt F) S1x512x1 .f32)) (L9 : List (View.Piece (Elt F) S1x512x1 .f32)) (L10 : List (View.Piece (Elt F) S1x512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ owns (c : Thread nD τ) arg16 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2)) -∗ K ⟨⟩))
          ⊢ wp frame (wpE (defs₀ (F := F)) Variants.none c none) E (cc0_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc0_kernel_eq_skeleton]; unfold cc0_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg14.eq_unread hfs0; obtain rfl := harg15.eq_unread hfs1; obtain rfl := harg16.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [H10]; · iexists _; iexact H10
    isplitl [HS0]; · iexists _; iexact HS0
    isplitl [HS1]; · iexists _; iexact HS1
    iexists _; iexact HS2

end Cert.Kernel.Fr

end
-- ==== Proof.FrameKernel.Frame.lean ====
/-
  The kernel program's run: what the three accumulators hold after each grid point and what the three output buffers hold
  where they are written, the invariant the region keeps between points, the body's obligation at a generic point (by the
  three runs of the body), and from the launch theorem the program's run to the end — every window's array at what the
  written-back blocks make it, every other buffer as the concatenation leaves it — and with it the frame claim.
-/
import proofs.«155617_j67714454389373_1_alg».proof.Proof.FrameKernel.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case of the body leaves -/

/-- The pieces the body stores into accumulator 0 at such a point tile it. -/
theorem scover0_A_0 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (y : S512x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).1 S512x1.size (by sl_kernel_rfl) y

/-- What the body leaves in accumulator 0 there: its pieces read back. -/
def sout0_A_0 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) : Vec F S512x1 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).1)

/-- The pieces the body stores into accumulator 1 at such a point tile it. -/
theorem scover0_A_1 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (y : S512x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.1 S512x1.size (by sl_kernel_rfl) y

/-- What the body leaves in accumulator 1 there: its pieces read back. -/
def sout0_A_1 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) : Vec F S512x1 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.1)

/-- The pieces the body stores into accumulator 2 at such a point tile it. -/
theorem scover0_A_2 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (y : S512x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.1 S512x1.size (by sl_kernel_rfl) y

/-- What the body leaves in accumulator 2 there: its pieces read back. -/
def sout0_A_2 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) : Vec F S512x1 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.1)

/-- The pieces the body stores into accumulator 0 at such a point tile it. -/
theorem scover0_B_0 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) (y : S512x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).1 S512x1.size (by sl_kernel_rfl) y

/-- What the body leaves in accumulator 0 there: its pieces read back. -/
def sout0_B_0 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) : Vec F S512x1 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).1)

/-- The pieces the body stores into accumulator 1 at such a point tile it. -/
theorem scover0_B_1 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) (y : S512x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.1 S512x1.size (by sl_kernel_rfl) y

/-- What the body leaves in accumulator 1 there: its pieces read back. -/
def sout0_B_1 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) : Vec F S512x1 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.1)

/-- The pieces the body stores into accumulator 2 at such a point tile it. -/
theorem scover0_B_2 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) (y : S512x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.1 S512x1.size (by sl_kernel_rfl) y

/-- What the body leaves in accumulator 2 there: its pieces read back. -/
def sout0_B_2 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) : Vec F S512x1 .f32 :=
  VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.1)

/-- The pieces the body stores into accumulator 0 at such a point tile it. -/
theorem scover0_C_0 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) (y : S512x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.2.1 S512x1.size (by sl_kernel_rfl) y

/-- What the body leaves in accumulator 0 there: its pieces read back. -/
def sout0_C_0 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) : Vec F S512x1 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.2.1)

/-- The pieces the body stores into accumulator 1 at such a point tile it. -/
theorem scover0_C_1 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) (y : S512x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.2.2.1 S512x1.size (by sl_kernel_rfl) y

/-- What the body leaves in accumulator 1 there: its pieces read back. -/
def sout0_C_1 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) : Vec F S512x1 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.2.2.1)

/-- The pieces the body stores into accumulator 2 at such a point tile it. -/
theorem scover0_C_2 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) (y : S512x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.2.2.2.1 S512x1.size (by sl_kernel_rfl) y

/-- What the body leaves in accumulator 2 there: its pieces read back. -/
def sout0_C_2 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) : Vec F S512x1 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.2.2.2.1)

/-- The one store into output 8 where the outputs are written covers its block. -/
theorem cover0_C_8 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) (y : S1x512x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).1 S1x512x1.size (by sl_kernel_rfl) y

/-- What the body leaves in output 8's staging buffer there. -/
def out0_C_8 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) : Vec F S1x512x1 .f32 :=
  VO0_8.read (Elt F) (VO0_8.writes (Elt F) VO0_8.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).1)

/-- The one store into output 9 where the outputs are written covers its block. -/
theorem cover0_C_9 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) (y : S1x512x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.1 S1x512x1.size (by sl_kernel_rfl) y

/-- What the body leaves in output 9's staging buffer there. -/
def out0_C_9 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) : Vec F S1x512x1 .f32 :=
  VO0_9.read (Elt F) (VO0_9.writes (Elt F) VO0_9.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.1)

/-- The one store into output 10 where the outputs are written covers its block. -/
theorem cover0_C_10 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) (y : S1x512x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.1 S1x512x1.size (by sl_kernel_rfl) y

/-- What the body leaves in output 10's staging buffer there. -/
def out0_C_10 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) : Vec F S1x512x1 .f32 :=
  VO0_10.read (Elt F) (VO0_10.writes (Elt F) VO0_10.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.1)

/-! ## The accumulators after each point -/

/-- What the three accumulators hold after the body at position `n`: by the case of the position, over what the position
    before left where the case does not reset them. -/
def scAt0 (c : Dev nD) : (n : ℕ) → n < cfg0.N → Vec F S512x1 .f32 × Vec F S512x1 .f32 × Vec F S512x1 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 8 = 0 then
      if h1 : (n + 1) % 8 = 7 then
        False.elim (by omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 8 = 7 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (scAt0 c n (Nat.lt_of_succ_lt hn)).1 (scAt0 c n (Nat.lt_of_succ_lt hn)).2.1 (scAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (scAt0 c n (Nat.lt_of_succ_lt hn)).1 (scAt0 c n (Nat.lt_of_succ_lt hn)).2.1 (scAt0 c n (Nat.lt_of_succ_lt hn)).2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (scAt0 c n (Nat.lt_of_succ_lt hn)).1 (scAt0 c n (Nat.lt_of_succ_lt hn)).2.1 (scAt0 c n (Nat.lt_of_succ_lt hn)).2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (scAt0 c n (Nat.lt_of_succ_lt hn)).1 (scAt0 c n (Nat.lt_of_succ_lt hn)).2.1 (scAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (scAt0 c n (Nat.lt_of_succ_lt hn)).1 (scAt0 c n (Nat.lt_of_succ_lt hn)).2.1 (scAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (scAt0 c n (Nat.lt_of_succ_lt hn)).1 (scAt0 c n (Nat.lt_of_succ_lt hn)).2.1 (scAt0 c n (Nat.lt_of_succ_lt hn)).2.2)

theorem scAt0_A (c : Dev nD) (t : Fin cfg0.N) (h0 : t.val % 8 = 0) (h1 : ¬t.val % 8 = 7) :
    scAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

theorem scAt0_B (c : Dev nD) (t : Fin cfg0.N) (h0 : ¬t.val % 8 = 0) (h1 : ¬t.val % 8 = 7) :
    scAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem scAt0_C (c : Dev nD) (t : Fin cfg0.N) (h0 : ¬t.val % 8 = 0) (h1 : t.val % 8 = 7) :
    scAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The outputs' buffers after each point -/

/-- A placeholder for an output's buffer at the points where the body stores nothing into it (nothing reads it there). -/
def idleOut : Vec F S1x512x1 .f32 := VO0_8.read (Elt F) VO0_8.junk

/-- Output 8's staging buffer after point `t`: written where the key tile is the last, from the accumulators the point before left. -/
def outAt0_8 (c : Dev nD) (t : Fin cfg0.N) : Vec F S1x512x1 .f32 :=
  if h1 : t.val % 8 = 7 then
    out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => (by have := (hcond0_0 t).mp h; omega)) ((hcond0_1 t).mpr h1) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2
  else idleOut

theorem outAt0_8_C (c : Dev nD) (t : Fin cfg0.N) (h0 : ¬t.val % 8 = 0) (h1 : t.val % 8 = 7) :
    outAt0_8 m c t = out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2 := by
  unfold outAt0_8; exact dif_pos h1

/-- Output 9's staging buffer after point `t`: written where the key tile is the last, from the accumulators the point before left. -/
def outAt0_9 (c : Dev nD) (t : Fin cfg0.N) : Vec F S1x512x1 .f32 :=
  if h1 : t.val % 8 = 7 then
    out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => (by have := (hcond0_0 t).mp h; omega)) ((hcond0_1 t).mpr h1) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2
  else idleOut

theorem outAt0_9_C (c : Dev nD) (t : Fin cfg0.N) (h0 : ¬t.val % 8 = 0) (h1 : t.val % 8 = 7) :
    outAt0_9 m c t = out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2 := by
  unfold outAt0_9; exact dif_pos h1

/-- Output 10's staging buffer after point `t`: written where the key tile is the last, from the accumulators the point before left. -/
def outAt0_10 (c : Dev nD) (t : Fin cfg0.N) : Vec F S1x512x1 .f32 :=
  if h1 : t.val % 8 = 7 then
    out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => (by have := (hcond0_0 t).mp h; omega)) ((hcond0_1 t).mpr h1) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2
  else idleOut

theorem outAt0_10_C (c : Dev nD) (t : Fin cfg0.N) (h0 : ¬t.val % 8 = 0) (h1 : t.val % 8 = 7) :
    outAt0_10 m c t = out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2 := by
  unfold outAt0_10; exact dif_pos h1

/-! ## The invariant between points -/

/-- Before the first point the launch's (every accumulator at anything); afterwards each accumulator at what the point before
    left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((scAt0 m c n hn).1) ∗ owns (c : Thread nD τ) scM0_1 fullShare ((scAt0 m c n hn).2.1) ∗ owns (c : Thread nD τ) scM0_2 fullShare ((scAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scAt0 m c n hn).1) ∗ owns (c : Thread nD τ) scM0_1 fullShare ((scAt0 m c n hn).2.1) ∗ owns (c : Thread nD τ) scM0_2 fullShare ((scAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scAt0 m c (n - 1) (by omega)).1) ∗ owns (c : Thread nD τ) scM0_1 fullShare ((scAt0 m c (n - 1) (by omega)).2.1) ∗ owns (c : Thread nD τ) scM0_2 fullShare ((scAt0 m c (n - 1) (by omega)).2.2)) ∗ (∃ r, prngReg c r)) := by
  cases n with
  | zero => exact absurd rfl hz
  | succ n => rfl

/-! ## The pipeline's proof data -/

/-- The arrays as the region finds them; after the body at a point each input's buffer at its block and each output's at
    `outAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt0_8 m c t
    | ⟨9, _⟩ => outAt0_9 m c t
    | ⟨10, _⟩ => outAt0_10 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt0_8 m c t := by dsimp only [dats]
theorem after0_9 (c : Dev nD) (t : Fin cfg0.N) : (dats m 0 c).after 9 t = outAt0_9 m c t := by dsimp only [dats]
theorem after0_10 (c : Dev nD) (t : Fin cfg0.N) : (dats m 0 c).after 10 t = outAt0_10 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
/-- The body at any point: the inputs' buffers hold their blocks; the closed forms say which case the point is in; the
    invariant hands the body the accumulators (at anything before the first point, else at what the point before left) and takes
    them back at this point's contents; an output where it is not written is handed back untouched; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 8 = 0
  · by_cases h1 : t.val % 8 = 7
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t (fun h => h1 ((hcond0_1 t).mp h))) (noFlush0_8 t (fun h => h1 ((hcond0_1 t).mp h)))]
      rw [Dat.leavesExact_idle (dats m 0 c) 9 t (idleAt0_9 t (fun h => h1 ((hcond0_1 t).mp h))) (noFlush0_9 t (fun h => h1 ((hcond0_1 t).mp h)))]
      rw [Dat.leavesExact_idle (dats m 0 c) 10 t (idleAt0_10 t (fun h => h1 ((hcond0_1 t).mp h))) (noFlush0_10 t (fun h => h1 ((hcond0_1 t).mp h)))]
      rw [scAt0_A m c t h0 h1]
      unfold sout0_A_0 sout0_A_1 sout0_A_2; (try dsimp only)
      by_cases hz : t.val = 0
      ·
        rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        isplitl [HS1]; · iexists _; iexact HS1
        isplitl [HS2]; · iexists _; iexact HS2
        iintro ⟨H0, H1, H2, H3, H4, H5, H6, H7, H8, H9, H10, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10
  · by_cases h1 : t.val % 8 = 7
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t ((hcond0_1 t).mpr h1)], after0_8]
      rw [show (dats m 0 c).leavesExact 9 t = owns (c : Thread nD τ) (ms0_9 t) fullShare ((dats m 0 c).after 9 t) from by
        unfold Dat.leavesExact; rw [liveAt0_9 t ((hcond0_1 t).mpr h1)], after0_9]
      rw [show (dats m 0 c).leavesExact 10 t = owns (c : Thread nD τ) (ms0_10 t) fullShare ((dats m 0 c).after 10 t) from by
        unfold Dat.leavesExact; rw [liveAt0_10 t ((hcond0_1 t).mpr h1)], after0_10]
      rw [scAt0_C m c t h0 h1, outAt0_8_C m c t h0 h1, outAt0_9_C m c t h0 h1, outAt0_10_C m c t h0 h1]
      unfold out0_C_8 out0_C_9 out0_C_10 sout0_C_0 sout0_C_1 sout0_C_2; (try dsimp only)
      by_cases hz : t.val = 0
      · exfalso; omega
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        iintro ⟨H0, H1, H2, H3, H4, H5, H6, H7, ⟨%e8, H8⟩, ⟨%e9, H9⟩, ⟨%e10, H10⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t (fun h => h1 ((hcond0_1 t).mp h))) (noFlush0_8 t (fun h => h1 ((hcond0_1 t).mp h)))]
      rw [Dat.leavesExact_idle (dats m 0 c) 9 t (idleAt0_9 t (fun h => h1 ((hcond0_1 t).mp h))) (noFlush0_9 t (fun h => h1 ((hcond0_1 t).mp h)))]
      rw [Dat.leavesExact_idle (dats m 0 c) 10 t (idleAt0_10 t (fun h => h1 ((hcond0_1 t).mp h))) (noFlush0_10 t (fun h => h1 ((hcond0_1 t).mp h)))]
      rw [scAt0_B m c t h0 h1]
      unfold sout0_B_0 sout0_B_1 sout0_B_2; (try dsimp only)
      by_cases hz : t.val = 0
      · exfalso; omega
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _ _).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- From any memory with zero counters every weakly fair execution of the program terminates, every window's array ending
    at what the proof data's written-back blocks make it and every other unscoped buffer as the concatenation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Fr

end
-- ==== Proof.FrameKernelIdeal.Common.lean ====
/-
  The kernel program around its one pipelined region: what the region finds in memory after the slices, reshapes and
  broadcasts that come before it, the concatenation that comes after it, each window's block at a grid point, the two
  conditions the body branches on in closed form over the 256 grid points (4 batches × 8 query tiles × 8 key tiles, the key
  tile innermost: the first condition holds where the key tile is the first, the second where it is the last), where
  the three output windows are idle, and the memrefs the body is called on.
-/
import proofs.«155617_j67714454389373_1_alg».proof.Proof.Gen.KernelIdeal.Launch
import proofs.«155617_j67714454389373_1_alg».proof.Proof.Gen.KernelIdeal.Skeleton
import proofs.«155617_j67714454389373_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: after the fourteen host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host prefix, the region, and the concatenation continued after the region. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The concatenation touches unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes only its own result, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the kernel writes `main_arg0`: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the concatenation after it: `main_arg0` ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the kernel writes `main_arg1`: the kernel finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the concatenation after it: `main_arg1` ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region's launch -/

/-- For any proof data whose arrays are the region-entry contents, a run to the launch's post read at the two argument
    arrays (neither is a window's array: each ends as the concatenation leaves it, which is as launched) is the frame claim. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c))⟩) h

/-! ## The body's two branch conditions -/

/-- The first condition (the accumulators are reset): the key tile's coordinate is zero. -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second condition (the outputs are written): the key tile is the last. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Where the second condition fails the body stores nothing into output 8, and the pipeline does not write it back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- Where it holds the body stores output 8's whole block. -/
theorem liveAt0_8 : ∀ t : Fin cfg0.N, cond0_1 (grid0.coords t) → cfg0.idle 8 (grid0.coords t) = false := by decide +kernel
/-- Where the second condition fails the body stores nothing into output 9, and the pipeline does not write it back. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
/-- Where it holds the body stores output 9's whole block. -/
theorem liveAt0_9 : ∀ t : Fin cfg0.N, cond0_1 (grid0.coords t) → cfg0.idle 9 (grid0.coords t) = false := by decide +kernel
/-- Where the second condition fails the body stores nothing into output 10, and the pipeline does not write it back. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
/-- Where it holds the body stores output 10's whole block. -/
theorem liveAt0_10 : ∀ t : Fin cfg0.N, cond0_1 (grid0.coords t) → cfg0.idle 10 (grid0.coords t) = false := by decide +kernel

/-! ## The memrefs the body is called on -/

/-- One staging buffer of output window 8, through which its contents are stated. -/
abbrev VO0_8 : View sig .tc .vmem S1x512x1 .f32 := (Memref.whole cc0_stg8_0 : Memref sig .tc .vmem S1x512x1 .f32).view
/-- One staging buffer of output window 9, through which its contents are stated. -/
abbrev VO0_9 : View sig .tc .vmem S1x512x1 .f32 := (Memref.whole cc0_stg9_0 : Memref sig .tc .vmem S1x512x1 .f32).view
/-- One staging buffer of output window 10, through which its contents are stated. -/
abbrev VO0_10 : View sig .tc .vmem S1x512x1 .f32 := (Memref.whole cc0_stg10_0 : Memref sig .tc .vmem S1x512x1 .f32).view
abbrev ms0_0 (t : Fin cfg0.N) : Memref sig .tc .vmem S1x512x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x1 .f32 := win0_10.stage (cfg0.slots t 10)
abbrev hs0_10 (t : Fin cfg0.N) : (ms0_10 t).IsWhole := hstage0_10 ((cfg0.slots t 10).cast nbuf0_10)
/-- The three scratch accumulators: whole scoped buffers of the kernel's own. -/
abbrev scM0_0 : Memref sig .tc .vmem S512x1 .f32 := Memref.whole cc0_scratch0
abbrev VS0_0 : View sig .tc .vmem S512x1 .f32 := scM0_0.view
abbrev scM0_1 : Memref sig .tc .vmem S512x1 .f32 := Memref.whole cc0_scratch1
abbrev VS0_1 : View sig .tc .vmem S512x1 .f32 := scM0_1.view
abbrev scM0_2 : Memref sig .tc .vmem S512x1 .f32 := Memref.whole cc0_scratch2
abbrev VS0_2 : View sig .tc .vmem S512x1 .f32 := scM0_2.view

/-- What the launch hands the region besides the windows: the three scratch buffers at some contents, and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Fr

end
-- ==== Proof.FrameKernelIdeal.RunA.lean ====
/-
  The kernel body run once, at a grid point where the key tile is the first of its row of the grid (the accumulators are reset) and not the last: on whole staging memrefs holding the eight input
  blocks, the three output buffers handed back as they came, the three accumulators at anything, it runs to the end
  with the inputs as they were and each accumulator with the body's stores written.  The stored pieces are found by
  running the body; later modules read them back.
-/
import proofs.«155617_j67714454389373_1_alg».proof.Proof.FrameKernelIdeal.Common

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) :
    Σ' (LS0 : List (View.Piece (Elt F) S512x1 .f32)) (LS1 : List (View.Piece (Elt F) S512x1 .f32)), { LS2 : List (View.Piece (Elt F) S512x1 .f32) //
      ∀ (xi8 xi9 xi10 : Vec F S1x512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xi9 ∗ owns (c : Thread nD τ) arg13 fullShare xi10 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xi9 ∗ owns (c : Thread nD τ) arg13 fullShare xi10 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2)) -∗ K ⟨⟩))
          ⊢ wp frame (wpE (defs₀ (F := F)) Variants.none c none) E (cc0_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun xi8 xi9 xi10 E K => ?run⟩
  case run =>
    simp only [cc0_kernel_eq_skeleton]; unfold cc0_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [HS0]; · iexists _; iexact HS0
    isplitl [HS1]; · iexists _; iexact HS1
    iexists _; iexact HS2

end Cert.KernelIdeal.Fr

end
-- ==== Proof.FrameKernelIdeal.RunB.lean ====
/-
  The kernel body run once, at a grid point where the key tile is neither the first nor the last: on whole staging memrefs holding the eight input
  blocks, the three output buffers handed back as they came, the three accumulators at what the point before left, it runs to the end
  with the inputs as they were and each accumulator with the body's stores written.  The stored pieces are found by
  running the body; later modules read them back.
-/
import proofs.«155617_j67714454389373_1_alg».proof.Proof.FrameKernelIdeal.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) :
    Σ' (LS0 : List (View.Piece (Elt F) S512x1 .f32)) (LS1 : List (View.Piece (Elt F) S512x1 .f32)), { LS2 : List (View.Piece (Elt F) S512x1 .f32) //
      ∀ (xi8 xi9 xi10 : Vec F S1x512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xi9 ∗ owns (c : Thread nD τ) arg13 fullShare xi10 ∗ owns (c : Thread nD τ) arg14 fullShare xs0 ∗ owns (c : Thread nD τ) arg15 fullShare xs1 ∗ owns (c : Thread nD τ) arg16 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xi9 ∗ owns (c : Thread nD τ) arg13 fullShare xi10 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2)) -∗ K ⟨⟩))
          ⊢ wp frame (wpE (defs₀ (F := F)) Variants.none c none) E (cc0_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun xi8 xi9 xi10 E K => ?run⟩
  case run =>
    simp only [cc0_kernel_eq_skeleton]; unfold cc0_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hfs0; obtain rfl := harg15.eq_unread hfs1; obtain rfl := harg16.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [HS0]; · iexists _; iexact HS0
    isplitl [HS1]; · iexists _; iexact HS1
    iexists _; iexact HS2

end Cert.KernelIdeal.Fr

end
-- ==== Proof.FrameKernelIdeal.RunC.lean ====
/-
  The kernel body run once, at a grid point where the key tile is the last (the outputs are written) and not the first: on whole staging memrefs holding the eight input
  blocks, the three output buffers at anything, the three accumulators at what the point before left, it runs to the end
  with the inputs as they were, each output buffer with the body's store written and each accumulator with the body's stores written.  The stored pieces are found by
  running the body; later modules read them back.
-/
import proofs.«155617_j67714454389373_1_alg».proof.Proof.FrameKernelIdeal.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) :
    Σ' (L8 : List (View.Piece (Elt F) S1x512x1 .f32)) (L9 : List (View.Piece (Elt F) S1x512x1 .f32)) (L10 : List (View.Piece (Elt F) S1x512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ owns (c : Thread nD τ) arg16 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2)) -∗ K ⟨⟩))
          ⊢ wp frame (wpE (defs₀ (F := F)) Variants.none c none) E (cc0_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc0_kernel_eq_skeleton]; unfold cc0_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg14.eq_unread hfs0; obtain rfl := harg15.eq_unread hfs1; obtain rfl := harg16.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [H10]; · iexists _; iexact H10
    isplitl [HS0]; · iexists _; iexact HS0
    isplitl [HS1]; · iexists _; iexact HS1
    iexists _; iexact HS2

end Cert.KernelIdeal.Fr

end
-- ==== Proof.FrameKernelIdeal.Frame.lean ====
/-
  The kernel program's run: what the three accumulators hold after each grid point and what the three output buffers hold
  where they are written, the invariant the region keeps between points, the body's obligation at a generic point (by the
  three runs of the body), and from the launch theorem the program's run to the end — every window's array at what the
  written-back blocks make it, every other buffer as the concatenation leaves it — and with it the frame claim.
-/
import proofs.«155617_j67714454389373_1_alg».proof.Proof.FrameKernelIdeal.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case of the body leaves -/

/-- The pieces the body stores into accumulator 0 at such a point tile it. -/
theorem scover0_A_0 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (y : S512x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).1 S512x1.size (by sl_kernel_rfl) y

/-- What the body leaves in accumulator 0 there: its pieces read back. -/
def sout0_A_0 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) : Vec F S512x1 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).1)

/-- The pieces the body stores into accumulator 1 at such a point tile it. -/
theorem scover0_A_1 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (y : S512x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.1 S512x1.size (by sl_kernel_rfl) y

/-- What the body leaves in accumulator 1 there: its pieces read back. -/
def sout0_A_1 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) : Vec F S512x1 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.1)

/-- The pieces the body stores into accumulator 2 at such a point tile it. -/
theorem scover0_A_2 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (y : S512x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.1 S512x1.size (by sl_kernel_rfl) y

/-- What the body leaves in accumulator 2 there: its pieces read back. -/
def sout0_A_2 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) : Vec F S512x1 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.1)

/-- The pieces the body stores into accumulator 0 at such a point tile it. -/
theorem scover0_B_0 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) (y : S512x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).1 S512x1.size (by sl_kernel_rfl) y

/-- What the body leaves in accumulator 0 there: its pieces read back. -/
def sout0_B_0 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) : Vec F S512x1 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).1)

/-- The pieces the body stores into accumulator 1 at such a point tile it. -/
theorem scover0_B_1 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) (y : S512x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.1 S512x1.size (by sl_kernel_rfl) y

/-- What the body leaves in accumulator 1 there: its pieces read back. -/
def sout0_B_1 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) : Vec F S512x1 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.1)

/-- The pieces the body stores into accumulator 2 at such a point tile it. -/
theorem scover0_B_2 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) (y : S512x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.1 S512x1.size (by sl_kernel_rfl) y

/-- What the body leaves in accumulator 2 there: its pieces read back. -/
def sout0_B_2 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) : Vec F S512x1 .f32 :=
  VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.1)

/-- The pieces the body stores into accumulator 0 at such a point tile it. -/
theorem scover0_C_0 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) (y : S512x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.2.1 S512x1.size (by sl_kernel_rfl) y

/-- What the body leaves in accumulator 0 there: its pieces read back. -/
def sout0_C_0 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) : Vec F S512x1 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.2.1)

/-- The pieces the body stores into accumulator 1 at such a point tile it. -/
theorem scover0_C_1 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) (y : S512x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.2.2.1 S512x1.size (by sl_kernel_rfl) y

/-- What the body leaves in accumulator 1 there: its pieces read back. -/
def sout0_C_1 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) : Vec F S512x1 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.2.2.1)

/-- The pieces the body stores into accumulator 2 at such a point tile it. -/
theorem scover0_C_2 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) (y : S512x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.2.2.2.1 S512x1.size (by sl_kernel_rfl) y

/-- What the body leaves in accumulator 2 there: its pieces read back. -/
def sout0_C_2 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) : Vec F S512x1 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.2.2.2.1)

/-- The one store into output 8 where the outputs are written covers its block. -/
theorem cover0_C_8 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) (y : S1x512x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).1 S1x512x1.size (by sl_kernel_rfl) y

/-- What the body leaves in output 8's staging buffer there. -/
def out0_C_8 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) : Vec F S1x512x1 .f32 :=
  VO0_8.read (Elt F) (VO0_8.writes (Elt F) VO0_8.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).1)

/-- The one store into output 9 where the outputs are written covers its block. -/
theorem cover0_C_9 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) (y : S1x512x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.1 S1x512x1.size (by sl_kernel_rfl) y

/-- What the body leaves in output 9's staging buffer there. -/
def out0_C_9 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) : Vec F S1x512x1 .f32 :=
  VO0_9.read (Elt F) (VO0_9.writes (Elt F) VO0_9.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.1)

/-- The one store into output 10 where the outputs are written covers its block. -/
theorem cover0_C_10 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) (y : S1x512x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.1 S1x512x1.size (by sl_kernel_rfl) y

/-- What the body leaves in output 10's staging buffer there. -/
def out0_C_10 (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) : Vec F S1x512x1 .f32 :=
  VO0_10.read (Elt F) (VO0_10.writes (Elt F) VO0_10.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2).2.2.1)

/-! ## The accumulators after each point -/

/-- What the three accumulators hold after the body at position `n`: by the case of the position, over what the position
    before left where the case does not reset them. -/
def scAt0 (c : Dev nD) : (n : ℕ) → n < cfg0.N → Vec F S512x1 .f32 × Vec F S512x1 .f32 × Vec F S512x1 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 8 = 0 then
      if h1 : (n + 1) % 8 = 7 then
        False.elim (by omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 8 = 7 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (scAt0 c n (Nat.lt_of_succ_lt hn)).1 (scAt0 c n (Nat.lt_of_succ_lt hn)).2.1 (scAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (scAt0 c n (Nat.lt_of_succ_lt hn)).1 (scAt0 c n (Nat.lt_of_succ_lt hn)).2.1 (scAt0 c n (Nat.lt_of_succ_lt hn)).2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (scAt0 c n (Nat.lt_of_succ_lt hn)).1 (scAt0 c n (Nat.lt_of_succ_lt hn)).2.1 (scAt0 c n (Nat.lt_of_succ_lt hn)).2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (scAt0 c n (Nat.lt_of_succ_lt hn)).1 (scAt0 c n (Nat.lt_of_succ_lt hn)).2.1 (scAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (scAt0 c n (Nat.lt_of_succ_lt hn)).1 (scAt0 c n (Nat.lt_of_succ_lt hn)).2.1 (scAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (scAt0 c n (Nat.lt_of_succ_lt hn)).1 (scAt0 c n (Nat.lt_of_succ_lt hn)).2.1 (scAt0 c n (Nat.lt_of_succ_lt hn)).2.2)

theorem scAt0_A (c : Dev nD) (t : Fin cfg0.N) (h0 : t.val % 8 = 0) (h1 : ¬t.val % 8 = 7) :
    scAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

theorem scAt0_B (c : Dev nD) (t : Fin cfg0.N) (h0 : ¬t.val % 8 = 0) (h1 : ¬t.val % 8 = 7) :
    scAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem scAt0_C (c : Dev nD) (t : Fin cfg0.N) (h0 : ¬t.val % 8 = 0) (h1 : t.val % 8 = 7) :
    scAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The outputs' buffers after each point -/

/-- A placeholder for an output's buffer at the points where the body stores nothing into it (nothing reads it there). -/
def idleOut : Vec F S1x512x1 .f32 := VO0_8.read (Elt F) VO0_8.junk

/-- Output 8's staging buffer after point `t`: written where the key tile is the last, from the accumulators the point before left. -/
def outAt0_8 (c : Dev nD) (t : Fin cfg0.N) : Vec F S1x512x1 .f32 :=
  if h1 : t.val % 8 = 7 then
    out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => (by have := (hcond0_0 t).mp h; omega)) ((hcond0_1 t).mpr h1) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2
  else idleOut

theorem outAt0_8_C (c : Dev nD) (t : Fin cfg0.N) (h0 : ¬t.val % 8 = 0) (h1 : t.val % 8 = 7) :
    outAt0_8 m c t = out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2 := by
  unfold outAt0_8; exact dif_pos h1

/-- Output 9's staging buffer after point `t`: written where the key tile is the last, from the accumulators the point before left. -/
def outAt0_9 (c : Dev nD) (t : Fin cfg0.N) : Vec F S1x512x1 .f32 :=
  if h1 : t.val % 8 = 7 then
    out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => (by have := (hcond0_0 t).mp h; omega)) ((hcond0_1 t).mpr h1) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2
  else idleOut

theorem outAt0_9_C (c : Dev nD) (t : Fin cfg0.N) (h0 : ¬t.val % 8 = 0) (h1 : t.val % 8 = 7) :
    outAt0_9 m c t = out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2 := by
  unfold outAt0_9; exact dif_pos h1

/-- Output 10's staging buffer after point `t`: written where the key tile is the last, from the accumulators the point before left. -/
def outAt0_10 (c : Dev nD) (t : Fin cfg0.N) : Vec F S1x512x1 .f32 :=
  if h1 : t.val % 8 = 7 then
    out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => (by have := (hcond0_0 t).mp h; omega)) ((hcond0_1 t).mpr h1) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2
  else idleOut

theorem outAt0_10_C (c : Dev nD) (t : Fin cfg0.N) (h0 : ¬t.val % 8 = 0) (h1 : t.val % 8 = 7) :
    outAt0_10 m c t = out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2 := by
  unfold outAt0_10; exact dif_pos h1

/-! ## The invariant between points -/

/-- Before the first point the launch's (every accumulator at anything); afterwards each accumulator at what the point before
    left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((scAt0 m c n hn).1) ∗ owns (c : Thread nD τ) scM0_1 fullShare ((scAt0 m c n hn).2.1) ∗ owns (c : Thread nD τ) scM0_2 fullShare ((scAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scAt0 m c n hn).1) ∗ owns (c : Thread nD τ) scM0_1 fullShare ((scAt0 m c n hn).2.1) ∗ owns (c : Thread nD τ) scM0_2 fullShare ((scAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scAt0 m c (n - 1) (by omega)).1) ∗ owns (c : Thread nD τ) scM0_1 fullShare ((scAt0 m c (n - 1) (by omega)).2.1) ∗ owns (c : Thread nD τ) scM0_2 fullShare ((scAt0 m c (n - 1) (by omega)).2.2)) ∗ (∃ r, prngReg c r)) := by
  cases n with
  | zero => exact absurd rfl hz
  | succ n => rfl

/-! ## The pipeline's proof data -/

/-- The arrays as the region finds them; after the body at a point each input's buffer at its block and each output's at
    `outAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt0_8 m c t
    | ⟨9, _⟩ => outAt0_9 m c t
    | ⟨10, _⟩ => outAt0_10 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt0_8 m c t := by dsimp only [dats]
theorem after0_9 (c : Dev nD) (t : Fin cfg0.N) : (dats m 0 c).after 9 t = outAt0_9 m c t := by dsimp only [dats]
theorem after0_10 (c : Dev nD) (t : Fin cfg0.N) : (dats m 0 c).after 10 t = outAt0_10 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
/-- The body at any point: the inputs' buffers hold their blocks; the closed forms say which case the point is in; the
    invariant hands the body the accumulators (at anything before the first point, else at what the point before left) and takes
    them back at this point's contents; an output where it is not written is handed back untouched; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 8 = 0
  · by_cases h1 : t.val % 8 = 7
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t (fun h => h1 ((hcond0_1 t).mp h))) (noFlush0_8 t (fun h => h1 ((hcond0_1 t).mp h)))]
      rw [Dat.leavesExact_idle (dats m 0 c) 9 t (idleAt0_9 t (fun h => h1 ((hcond0_1 t).mp h))) (noFlush0_9 t (fun h => h1 ((hcond0_1 t).mp h)))]
      rw [Dat.leavesExact_idle (dats m 0 c) 10 t (idleAt0_10 t (fun h => h1 ((hcond0_1 t).mp h))) (noFlush0_10 t (fun h => h1 ((hcond0_1 t).mp h)))]
      rw [scAt0_A m c t h0 h1]
      unfold sout0_A_0 sout0_A_1 sout0_A_2; (try dsimp only)
      by_cases hz : t.val = 0
      ·
        rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        isplitl [HS1]; · iexists _; iexact HS1
        isplitl [HS2]; · iexists _; iexact HS2
        iintro ⟨H0, H1, H2, H3, H4, H5, H6, H7, H8, H9, H10, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10
  · by_cases h1 : t.val % 8 = 7
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t ((hcond0_1 t).mpr h1)], after0_8]
      rw [show (dats m 0 c).leavesExact 9 t = owns (c : Thread nD τ) (ms0_9 t) fullShare ((dats m 0 c).after 9 t) from by
        unfold Dat.leavesExact; rw [liveAt0_9 t ((hcond0_1 t).mpr h1)], after0_9]
      rw [show (dats m 0 c).leavesExact 10 t = owns (c : Thread nD τ) (ms0_10 t) fullShare ((dats m 0 c).after 10 t) from by
        unfold Dat.leavesExact; rw [liveAt0_10 t ((hcond0_1 t).mpr h1)], after0_10]
      rw [scAt0_C m c t h0 h1, outAt0_8_C m c t h0 h1, outAt0_9_C m c t h0 h1, outAt0_10_C m c t h0 h1]
      unfold out0_C_8 out0_C_9 out0_C_10 sout0_C_0 sout0_C_1 sout0_C_2; (try dsimp only)
      by_cases hz : t.val = 0
      · exfalso; omega
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        iintro ⟨H0, H1, H2, H3, H4, H5, H6, H7, ⟨%e8, H8⟩, ⟨%e9, H9⟩, ⟨%e10, H10⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t (fun h => h1 ((hcond0_1 t).mp h))) (noFlush0_8 t (fun h => h1 ((hcond0_1 t).mp h)))]
      rw [Dat.leavesExact_idle (dats m 0 c) 9 t (idleAt0_9 t (fun h => h1 ((hcond0_1 t).mp h))) (noFlush0_9 t (fun h => h1 ((hcond0_1 t).mp h)))]
      rw [Dat.leavesExact_idle (dats m 0 c) 10 t (idleAt0_10 t (fun h => h1 ((hcond0_1 t).mp h))) (noFlush0_10 t (fun h => h1 ((hcond0_1 t).mp h)))]
      rw [scAt0_B m c t h0 h1]
      unfold sout0_B_0 sout0_B_1 sout0_B_2; (try dsimp only)
      by_cases hz : t.val = 0
      · exfalso; omega
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _ _).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- From any memory with zero counters every weakly fair execution of the program terminates, every window's array ending
    at what the proof data's written-back blocks make it and every other unscoped buffer as the concatenation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Fr

end
-- ==== Proof.FrameKernelIdeal.Pieces.lean ====
/-
  What the body's stores leave, as values: at a point the three accumulators go from `a` to one step further — the
  body's lane sums over the key tile added in —, from zero where the key tile is the first; and where the key tile is the
  last each output block is the finishing expression of its query column and its accumulator after that step.
-/
import proofs.«155617_j67714454389373_1_alg».proof.Proof.FrameKernelIdeal.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

section Steps
variable (x0 x1 x2 x3 : Vec F S1x512x1 .f32) (x4 x5 x6 x7 : Vec F S1x1x512 .f32) (a : Vec F S512x1 .f32)

/-- One point's step of the x, y and z accumulators: the query tile's columns `x0 … x3` (x, y, z, radius), the key tile's rows
    `x4 … x7`, the accumulator's contents `a` before. -/
def step0 : Vec F S512x1 .f32 :=
  k0_pay19 (k0_pay10 x3) (k0_pay11 x7) (k0_pay12 x0 x4) (k0_pay14 x2 x6) (k0_pay15 x0 x4) (k0_pay16 x1 x5) a
def step1 : Vec F S512x1 .f32 :=
  k0_pay1 a (k0_pay20 (k0_pay10 x3) (k0_pay11 x7) (k0_pay13 x1 x5) (k0_pay14 x2 x6) (k0_pay15 x0 x4) (k0_pay16 x1 x5))
def step2 : Vec F S512x1 .f32 :=
  k0_pay2 (k0_pay17 (k0_pay10 x3) (k0_pay11 x7) (k0_pay14 x2 x6) (k0_pay15 x0 x4) (k0_pay16 x1 x5)) (k0_pay18 (k0_pay14 x2 x6)) a
end Steps

/-- The finishing expressions of the three outputs: a query column `x` and its accumulator `a`. -/
def fin0 (x : Vec F S1x512x1 .f32) (a : Vec F S512x1 .f32) : Vec F S1x512x1 .f32 := k0_pay4 x a
def fin1 (x : Vec F S1x512x1 .f32) (a : Vec F S512x1 .f32) : Vec F S1x512x1 .f32 := k0_pay5 x a
def fin2 (x : Vec F S1x512x1 .f32) (a : Vec F S512x1 .f32) : Vec F S1x512x1 .f32 := k0_pay3 (k0_pay6 x a)

theorem sout0_A_0_eq (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = step0 x0 x1 x2 x3 x4 x5 x6 x7 (k0_pay7 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  sl_unfold_words
  rw [View.canon_cons_unit_zero (S := S512x1) hz2, View.readCov_unit_zero (S := S512x1) _ hz2]
  unfold step0
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512x1) hz3, View.ld_unit_zero (S := S1x1x512) hz3, View.ld_unit_zero (S := S512x1) hz2, View.readCov_unit_zero (S := S512x1) _ hz2]

theorem sout0_A_1_eq (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = step1 x0 x1 x2 x3 x4 x5 x6 x7 (k0_pay8 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  sl_unfold_words
  rw [View.canon_cons_unit_zero (S := S512x1) hz2, View.readCov_unit_zero (S := S512x1) _ hz2]
  unfold step1
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512x1) hz3, View.ld_unit_zero (S := S1x1x512) hz3, View.ld_unit_zero (S := S512x1) hz2, View.readCov_unit_zero (S := S512x1) _ hz2]

theorem sout0_A_2_eq (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = step2 x0 x1 x2 x3 x4 x5 x6 x7 (k0_pay9 (F := F)) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  sl_unfold_words
  rw [View.canon_cons_unit_zero (S := S512x1) hz2, View.readCov_unit_zero (S := S512x1) _ hz2]
  unfold step2
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512x1) hz3, View.ld_unit_zero (S := S1x1x512) hz3, View.ld_unit_zero (S := S512x1) hz2, View.readCov_unit_zero (S := S512x1) _ hz2]

theorem sout0_B_0_eq (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = step0 x0 x1 x2 x3 x4 x5 x6 x7 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_B
  dsimp only
  sl_unfold_words
  rw [View.canon_unit_zero hz2]
  unfold step0
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512x1) hz3, View.ld_unit_zero (S := S1x1x512) hz3, View.ld_unit_zero (S := S512x1) hz2, View.readCov_unit_zero (S := S512x1) _ hz2]

theorem sout0_B_1_eq (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = step1 x0 x1 x2 x3 x4 x5 x6 x7 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_B
  dsimp only
  sl_unfold_words
  rw [View.canon_unit_zero hz2]
  unfold step1
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512x1) hz3, View.ld_unit_zero (S := S1x1x512) hz3, View.ld_unit_zero (S := S512x1) hz2, View.readCov_unit_zero (S := S512x1) _ hz2]

theorem sout0_B_2_eq (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : ¬cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = step2 x0 x1 x2 x3 x4 x5 x6 x7 xs2 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_B
  dsimp only
  sl_unfold_words
  rw [View.canon_unit_zero hz2]
  unfold step2
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512x1) hz3, View.ld_unit_zero (S := S1x1x512) hz3, View.ld_unit_zero (S := S512x1) hz2, View.readCov_unit_zero (S := S512x1) _ hz2]

theorem sout0_C_0_eq (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = step0 x0 x1 x2 x3 x4 x5 x6 x7 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_C
  dsimp only
  sl_unfold_words
  rw [View.canon_unit_zero hz2]
  unfold step0
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512x1) hz3, View.ld_unit_zero (S := S1x1x512) hz3, View.ld_unit_zero (S := S512x1) hz2, View.readCov_unit_zero (S := S512x1) _ hz2]

theorem sout0_C_1_eq (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = step1 x0 x1 x2 x3 x4 x5 x6 x7 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_C
  dsimp only
  sl_unfold_words
  rw [View.canon_unit_zero hz2]
  unfold step1
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512x1) hz3, View.ld_unit_zero (S := S1x1x512) hz3, View.ld_unit_zero (S := S512x1) hz2, View.readCov_unit_zero (S := S512x1) _ hz2]

theorem sout0_C_2_eq (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = step2 x0 x1 x2 x3 x4 x5 x6 x7 xs2 := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_C
  dsimp only
  sl_unfold_words
  rw [View.canon_unit_zero hz2]
  unfold step2
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512x1) hz3, View.ld_unit_zero (S := S1x1x512) hz3, View.ld_unit_zero (S := S512x1) hz2, View.readCov_unit_zero (S := S512x1) _ hz2]

theorem out0_C_8_eq (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) :
    out0_C_8 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = fin0 x0 (step0 x0 x1 x2 x3 x4 x5 x6 x7 xs0) := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_C
  dsimp only
  sl_unfold_words
  rw [View.canon_unit_zero hz3]
  unfold fin0 step0
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512x1) hz3, View.ld_unit_zero (S := S1x1x512) hz3, View.ld_unit_zero (S := S512x1) hz2, View.readCov_unit_zero (S := S512x1) _ hz2]

theorem out0_C_9_eq (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) :
    out0_C_9 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = fin1 x1 (step1 x0 x1 x2 x3 x4 x5 x6 x7 xs1) := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_C
  dsimp only
  sl_unfold_words
  rw [View.canon_unit_zero hz3]
  unfold fin1 step1
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512x1) hz3, View.ld_unit_zero (S := S1x1x512) hz3, View.ld_unit_zero (S := S512x1) hz2, View.readCov_unit_zero (S := S512x1) _ hz2]

theorem out0_C_10_eq (c : Dev nD) (i : grid0.Coords) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (hc0 : ¬cond0_0 i) (hc1 : cond0_1 i)
    (x0 : Vec F S1x512x1 .f32) (x1 : Vec F S1x512x1 .f32) (x2 : Vec F S1x512x1 .f32) (x3 : Vec F S1x512x1 .f32) (x4 : Vec F S1x1x512 .f32) (x5 : Vec F S1x1x512 .f32) (x6 : Vec F S1x1x512 .f32) (x7 : Vec F S1x1x512 .f32) (xs0 : Vec F S512x1 .f32) (xs1 : Vec F S512x1 .f32) (xs2 : Vec F S512x1 .f32) :
    out0_C_10 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = fin2 x2 (step2 x0 x1 x2 x3 x4 x5 x6 x7 xs2) := by
  unfold out0_C_10
  rw [View.read_writes_eq_canon _ _ _ (cover0_C_10 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_C
  dsimp only
  sl_unfold_words
  rw [View.canon_unit_zero hz3]
  unfold fin2 step2
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512x1) hz3, View.ld_unit_zero (S := S1x1x512) hz3, View.ld_unit_zero (S := S512x1) hz2, View.readCov_unit_zero (S := S512x1) _ hz2]

end Cert.KernelIdeal.Fr

end
-- ==== Proof.HostGlue.lean ====
/-
  The kernel's eight input blocks at a grid point, and the concatenation of its three results, read at an entry in terms of
  the program's two argument arrays.

  The 256 grid points run over 4 batches × 8 query tiles × 8 key tiles, the key tile innermost: point `t` is batch `t / 64`,
  query tile `t / 8 % 8`, key tile `t % 8`.  The four query-side windows stage, as columns `[1, 512, 1]`, the x, y, z coordinates
  and the radius of the 512 points of the query tile; the four key-side windows stage the same of the key tile as rows
  `[1, 1, 512]`.  The arrays they are cut from are made before the kernel by slicing one coordinate off the point array,
  dropping the unit axis and re-adding one (as a column `[4, 4096, 1]` or a row `[4, 1, 4096]`), so each block entry is an entry of
  an argument array.
-/
import proofs.«155617_j67714454389373_1_alg».proof.Proof.FrameKernelIdeal.Common
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Glue

open Cert.KernelIdeal Cert.KernelIdeal.Gen Cert.KernelIdeal.Fr
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The point array and the radii as launched, at their literal types. -/
abbrev XA (c : Dev nD) : Vec F S4x4096x3 .f32 := m ((c : Thread nD τ).loc main_arg0)
abbrev RA (c : Dev nD) : Vec F S4x4096 .f32 := m ((c : Thread nD τ).loc main_arg1)

/-- A grid point's batch, query tile and key tile. -/
def bOf (t : Fin cfg0.N) : Fin 4 := ⟨t.val / 64, by have := t.isLt; have h : cfg0.N = 256 := N_0; omega⟩
def qiOf (t : Fin cfg0.N) : Fin 8 := ⟨t.val / 8 % 8, Nat.mod_lt _ (by decide)⟩
def kiOf (t : Fin cfg0.N) : Fin 8 := ⟨t.val % 8, Nat.mod_lt _ (by decide)⟩
/-- Row `r` of the point's query tile, and row `j` of its key tile, among the batch's 4096 points. -/
def qrow (t : Fin cfg0.N) (r : Fin 512) : Fin 4096 := ⟨512 * (qiOf t).val + r.val, by have := (qiOf t).isLt; have := r.isLt; omega⟩
def krow (t : Fin cfg0.N) (j : Fin 512) : Fin 4096 := ⟨512 * (kiOf t).val + j.val, by have := (kiOf t).isLt; have := j.isLt; omega⟩

/-- The eight input blocks at their literal types. -/
abbrev qx (c : Dev nD) (t : Fin cfg0.N) : Vec F S1x512x1 .f32 := iblk m c 0 t
abbrev qy (c : Dev nD) (t : Fin cfg0.N) : Vec F S1x512x1 .f32 := iblk m c 1 t
abbrev qz (c : Dev nD) (t : Fin cfg0.N) : Vec F S1x512x1 .f32 := iblk m c 2 t
abbrev qr (c : Dev nD) (t : Fin cfg0.N) : Vec F S1x512x1 .f32 := iblk m c 3 t
abbrev kx (c : Dev nD) (t : Fin cfg0.N) : Vec F S1x1x512 .f32 := iblk m c 4 t
abbrev ky (c : Dev nD) (t : Fin cfg0.N) : Vec F S1x1x512 .f32 := iblk m c 5 t
abbrev kz (c : Dev nD) (t : Fin cfg0.N) : Vec F S1x1x512 .f32 := iblk m c 6 t
abbrev kr (c : Dev nD) (t : Fin cfg0.N) : Vec F S1x1x512 .f32 := iblk m c 7 t

/-! ## The host operations read at an entry -/

/-- Coordinate `k` sliced off the point array, read at a column entry. -/
theorem slice_apply (x : Vec F S4x4096x3 .f32) (off : Fin S4x4096x3.rank → Nat) (h : S4x4096x3.Slices off S4x4096x1) (k : Fin 3)
    (h0 : off 0 = 0) (h1 : off 1 = 0) (h2 : off 2 = k.val) (b : Fin 4) (n : Fin 4096) :
    extractStridedSlice S4x4096x1 off x h (ix3 b n (0 : Fin 1)) = x (ix3 b n k) := by
  refine extractStridedSlice_apply off x h _ _ (fun a => ?_)
  match a with
  | ⟨0, _⟩ => show b.val = off 0 + b.val; omega
  | ⟨1, _⟩ => show n.val = off 1 + n.val; omega
  | ⟨2, _⟩ => show k.val = off 2 + 0; omega

/-- The unit axis dropped: entry `(b, n)` is the column's entry `(b, n, 0)`. -/
theorem drop_apply (y : Vec F S4x4096x1 .f32) (b : Fin 4) (n : Fin 4096) :
    shapeCast S4x4096 y shapeCasts_S4x4096x1_S4x4096 (ix2 b n) = y (ix3 b n (0 : Fin 1)) := by
  refine shapeCast_apply y _ _ _ ?_
  rw [Shape.rowMajor_val_two, Shape.rowMajor_val_three]
  show (b.val * 4096 + n.val) * 1 + 0 = b.val * 4096 + n.val
  omega

/-- The unit axis re-added last: the column's entry `(b, n, 0)` is entry `(b, n)`. -/
theorem col_apply (z : Vec F S4x4096 .f32) (b : Fin 4) (n : Fin 4096) :
    broadcastInDim S4x4096x1 ![0, 1] bcast_S4x4096_S4x4096x1_0_1 z (ix3 b n (0 : Fin 1)) = z (ix2 b n) := by
  refine broadcastInDim_apply _ bcast_S4x4096_S4x4096x1_0_1 z _ _ (fun a => ?_)
  match a with
  | ⟨0, _⟩ => show b.val = if (4 : Nat) = 1 then 0 else b.val; rw [if_neg (by decide)]
  | ⟨1, _⟩ => show n.val = if (4096 : Nat) = 1 then 0 else n.val; rw [if_neg (by decide)]

/-- The unit axis re-added in the middle: the row's entry `(b, 0, n)` is entry `(b, n)`. -/
theorem row_apply (z : Vec F S4x4096 .f32) (b : Fin 4) (n : Fin 4096) :
    broadcastInDim S4x1x4096 ![0, 2] bcast_S4x4096_S4x1x4096_0_2 z (ix3 b (0 : Fin 1) n) = z (ix2 b n) := by
  refine broadcastInDim_apply _ bcast_S4x4096_S4x1x4096_0_2 z _ _ (fun a => ?_)
  match a with
  | ⟨0, _⟩ => show b.val = if (4 : Nat) = 1 then 0 else b.val; rw [if_neg (by decide)]
  | ⟨1, _⟩ => show n.val = if (4096 : Nat) = 1 then 0 else n.val; rw [if_neg (by decide)]

/-! ## The eight staged arrays as the kernel finds them: the host operations' terms of the two arguments -/

/-- `main_v6` is the x coordinates as a column. -/
theorem V_main_v6 (c : Dev nD) : (V m c main_v6 : S4x4096x1.Idx → Elt F .f32) =
    broadcastInDim S4x4096x1 ![0, 1] bcast_S4x4096_S4x4096x1_0_1 (shapeCast S4x4096 (extractStridedSlice S4x4096x1 ![0, 0, 0] (XA m c) slices_S4x4096x3_S4x4096x1_0_0_0) shapeCasts_S4x4096x1_S4x4096) := by
  dsimp only [V, V0]
  simp only [hostOps0, List.flatten_cons, List.flatten_nil, List.append_nil]
  after_results
  rfl

/-- `main_v7` is the y coordinates as a column. -/
theorem V_main_v7 (c : Dev nD) : (V m c main_v7 : S4x4096x1.Idx → Elt F .f32) =
    broadcastInDim S4x4096x1 ![0, 1] bcast_S4x4096_S4x4096x1_0_1 (shapeCast S4x4096 (extractStridedSlice S4x4096x1 ![0, 0, 1] (XA m c) slices_S4x4096x3_S4x4096x1_0_0_1) shapeCasts_S4x4096x1_S4x4096) := by
  dsimp only [V, V0]
  simp only [hostOps0, List.flatten_cons, List.flatten_nil, List.append_nil]
  after_results
  rfl

/-- `main_v8` is the z coordinates as a column. -/
theorem V_main_v8 (c : Dev nD) : (V m c main_v8 : S4x4096x1.Idx → Elt F .f32) =
    broadcastInDim S4x4096x1 ![0, 1] bcast_S4x4096_S4x4096x1_0_1 (shapeCast S4x4096 (extractStridedSlice S4x4096x1 ![0, 0, 2] (XA m c) slices_S4x4096x3_S4x4096x1_0_0_2) shapeCasts_S4x4096x1_S4x4096) := by
  dsimp only [V, V0]
  simp only [hostOps0, List.flatten_cons, List.flatten_nil, List.append_nil]
  after_results
  rfl

/-- `main_v12` is the radii as a column. -/
theorem V_main_v12 (c : Dev nD) : (V m c main_v12 : S4x4096x1.Idx → Elt F .f32) =
    broadcastInDim S4x4096x1 ![0, 1] bcast_S4x4096_S4x4096x1_0_1 (RA m c) := by
  dsimp only [V, V0]
  simp only [hostOps0, List.flatten_cons, List.flatten_nil, List.append_nil]
  after_results

/-- `main_v9` is the x coordinates as a row. -/
theorem V_main_v9 (c : Dev nD) : (V m c main_v9 : S4x1x4096.Idx → Elt F .f32) =
    broadcastInDim S4x1x4096 ![0, 2] bcast_S4x4096_S4x1x4096_0_2 (shapeCast S4x4096 (extractStridedSlice S4x4096x1 ![0, 0, 0] (XA m c) slices_S4x4096x3_S4x4096x1_0_0_0) shapeCasts_S4x4096x1_S4x4096) := by
  dsimp only [V, V0]
  simp only [hostOps0, List.flatten_cons, List.flatten_nil, List.append_nil]
  after_results
  rfl

/-- `main_v10` is the y coordinates as a row. -/
theorem V_main_v10 (c : Dev nD) : (V m c main_v10 : S4x1x4096.Idx → Elt F .f32) =
    broadcastInDim S4x1x4096 ![0, 2] bcast_S4x4096_S4x1x4096_0_2 (shapeCast S4x4096 (extractStridedSlice S4x4096x1 ![0, 0, 1] (XA m c) slices_S4x4096x3_S4x4096x1_0_0_1) shapeCasts_S4x4096x1_S4x4096) := by
  dsimp only [V, V0]
  simp only [hostOps0, List.flatten_cons, List.flatten_nil, List.append_nil]
  after_results
  rfl

/-- `main_v11` is the z coordinates as a row. -/
theorem V_main_v11 (c : Dev nD) : (V m c main_v11 : S4x1x4096.Idx → Elt F .f32) =
    broadcastInDim S4x1x4096 ![0, 2] bcast_S4x4096_S4x1x4096_0_2 (shapeCast S4x4096 (extractStridedSlice S4x4096x1 ![0, 0, 2] (XA m c) slices_S4x4096x3_S4x4096x1_0_0_2) shapeCasts_S4x4096x1_S4x4096) := by
  dsimp only [V, V0]
  simp only [hostOps0, List.flatten_cons, List.flatten_nil, List.append_nil]
  after_results
  rfl

/-- `main_v13` is the radii as a row. -/
theorem V_main_v13 (c : Dev nD) : (V m c main_v13 : S4x1x4096.Idx → Elt F .f32) =
    broadcastInDim S4x1x4096 ![0, 2] bcast_S4x4096_S4x1x4096_0_2 (RA m c) := by
  dsimp only [V, V0]
  simp only [hostOps0, List.flatten_cons, List.flatten_nil, List.append_nil]
  after_results

/-! ## The windows' block indices over the grid: batch, tile, zero -/

theorem idx_0 : ∀ t : Fin cfg0.N, win0_0.index t (0 : Fin 3) = t.val / 64 ∧ win0_0.index t (1 : Fin 3) = t.val / 8 % 8 ∧ win0_0.index t (2 : Fin 3) = 0 :=
  (by decide +kernel : ∀ t : Fin grid0.N, _)

theorem idx_1 : ∀ t : Fin cfg0.N, win0_1.index t (0 : Fin 3) = t.val / 64 ∧ win0_1.index t (1 : Fin 3) = t.val / 8 % 8 ∧ win0_1.index t (2 : Fin 3) = 0 :=
  (by decide +kernel : ∀ t : Fin grid0.N, _)

theorem idx_2 : ∀ t : Fin cfg0.N, win0_2.index t (0 : Fin 3) = t.val / 64 ∧ win0_2.index t (1 : Fin 3) = t.val / 8 % 8 ∧ win0_2.index t (2 : Fin 3) = 0 :=
  (by decide +kernel : ∀ t : Fin grid0.N, _)

theorem idx_3 : ∀ t : Fin cfg0.N, win0_3.index t (0 : Fin 3) = t.val / 64 ∧ win0_3.index t (1 : Fin 3) = t.val / 8 % 8 ∧ win0_3.index t (2 : Fin 3) = 0 :=
  (by decide +kernel : ∀ t : Fin grid0.N, _)

theorem idx_4 : ∀ t : Fin cfg0.N, win0_4.index t (0 : Fin 3) = t.val / 64 ∧ win0_4.index t (1 : Fin 3) = 0 ∧ win0_4.index t (2 : Fin 3) = t.val % 8 :=
  (by decide +kernel : ∀ t : Fin grid0.N, _)

theorem idx_5 : ∀ t : Fin cfg0.N, win0_5.index t (0 : Fin 3) = t.val / 64 ∧ win0_5.index t (1 : Fin 3) = 0 ∧ win0_5.index t (2 : Fin 3) = t.val % 8 :=
  (by decide +kernel : ∀ t : Fin grid0.N, _)

theorem idx_6 : ∀ t : Fin cfg0.N, win0_6.index t (0 : Fin 3) = t.val / 64 ∧ win0_6.index t (1 : Fin 3) = 0 ∧ win0_6.index t (2 : Fin 3) = t.val % 8 :=
  (by decide +kernel : ∀ t : Fin grid0.N, _)

theorem idx_7 : ∀ t : Fin cfg0.N, win0_7.index t (0 : Fin 3) = t.val / 64 ∧ win0_7.index t (1 : Fin 3) = 0 ∧ win0_7.index t (2 : Fin 3) = t.val % 8 :=
  (by decide +kernel : ∀ t : Fin grid0.N, _)

/-! ## Each block entry is an entry of its staged array -/

theorem qx_blk (c : Dev nD) (t : Fin cfg0.N) (r : Fin 512) :
    qx m c t (ix3 (0 : Fin 1) r (0 : Fin 1)) = (V m c main_v6 : S4x4096x1.Idx → Elt F .f32) (ix3 (bOf t) (qrow t r) (0 : Fin 1)) := by
  show (V m c main_v6 : S4x4096x1.Idx → Elt F .f32) (((cfg0.win 0).blk t).view.emb (ix3 (0 : Fin 1) r (0 : Fin 1))) = _
  refine congrArg _ ?_
  obtain ⟨e0, e1, e2⟩ := idx_0 t
  funext a; apply Fin.ext
  match a with
  | ⟨0, _⟩ => show win0_0.index t (0 : Fin 3) * 1 + 1 * 0 = t.val / 64; omega
  | ⟨1, _⟩ => show win0_0.index t (1 : Fin 3) * 512 + 1 * r.val = 512 * (t.val / 8 % 8) + r.val; omega
  | ⟨2, _⟩ => show win0_0.index t (2 : Fin 3) * 1 + 1 * 0 = 0; omega

theorem qy_blk (c : Dev nD) (t : Fin cfg0.N) (r : Fin 512) :
    qy m c t (ix3 (0 : Fin 1) r (0 : Fin 1)) = (V m c main_v7 : S4x4096x1.Idx → Elt F .f32) (ix3 (bOf t) (qrow t r) (0 : Fin 1)) := by
  show (V m c main_v7 : S4x4096x1.Idx → Elt F .f32) (((cfg0.win 1).blk t).view.emb (ix3 (0 : Fin 1) r (0 : Fin 1))) = _
  refine congrArg _ ?_
  obtain ⟨e0, e1, e2⟩ := idx_1 t
  funext a; apply Fin.ext
  match a with
  | ⟨0, _⟩ => show win0_1.index t (0 : Fin 3) * 1 + 1 * 0 = t.val / 64; omega
  | ⟨1, _⟩ => show win0_1.index t (1 : Fin 3) * 512 + 1 * r.val = 512 * (t.val / 8 % 8) + r.val; omega
  | ⟨2, _⟩ => show win0_1.index t (2 : Fin 3) * 1 + 1 * 0 = 0; omega

theorem qz_blk (c : Dev nD) (t : Fin cfg0.N) (r : Fin 512) :
    qz m c t (ix3 (0 : Fin 1) r (0 : Fin 1)) = (V m c main_v8 : S4x4096x1.Idx → Elt F .f32) (ix3 (bOf t) (qrow t r) (0 : Fin 1)) := by
  show (V m c main_v8 : S4x4096x1.Idx → Elt F .f32) (((cfg0.win 2).blk t).view.emb (ix3 (0 : Fin 1) r (0 : Fin 1))) = _
  refine congrArg _ ?_
  obtain ⟨e0, e1, e2⟩ := idx_2 t
  funext a; apply Fin.ext
  match a with
  | ⟨0, _⟩ => show win0_2.index t (0 : Fin 3) * 1 + 1 * 0 = t.val / 64; omega
  | ⟨1, _⟩ => show win0_2.index t (1 : Fin 3) * 512 + 1 * r.val = 512 * (t.val / 8 % 8) + r.val; omega
  | ⟨2, _⟩ => show win0_2.index t (2 : Fin 3) * 1 + 1 * 0 = 0; omega

theorem qr_blk (c : Dev nD) (t : Fin cfg0.N) (r : Fin 512) :
    qr m c t (ix3 (0 : Fin 1) r (0 : Fin 1)) = (V m c main_v12 : S4x4096x1.Idx → Elt F .f32) (ix3 (bOf t) (qrow t r) (0 : Fin 1)) := by
  show (V m c main_v12 : S4x4096x1.Idx → Elt F .f32) (((cfg0.win 3).blk t).view.emb (ix3 (0 : Fin 1) r (0 : Fin 1))) = _
  refine congrArg _ ?_
  obtain ⟨e0, e1, e2⟩ := idx_3 t
  funext a; apply Fin.ext
  match a with
  | ⟨0, _⟩ => show win0_3.index t (0 : Fin 3) * 1 + 1 * 0 = t.val / 64; omega
  | ⟨1, _⟩ => show win0_3.index t (1 : Fin 3) * 512 + 1 * r.val = 512 * (t.val / 8 % 8) + r.val; omega
  | ⟨2, _⟩ => show win0_3.index t (2 : Fin 3) * 1 + 1 * 0 = 0; omega

theorem kx_blk (c : Dev nD) (t : Fin cfg0.N) (j : Fin 512) :
    kx m c t (ix3 (0 : Fin 1) (0 : Fin 1) j) = (V m c main_v9 : S4x1x4096.Idx → Elt F .f32) (ix3 (bOf t) (0 : Fin 1) (krow t j)) := by
  show (V m c main_v9 : S4x1x4096.Idx → Elt F .f32) (((cfg0.win 4).blk t).view.emb (ix3 (0 : Fin 1) (0 : Fin 1) j)) = _
  refine congrArg _ ?_
  obtain ⟨e0, e1, e2⟩ := idx_4 t
  funext a; apply Fin.ext
  match a with
  | ⟨0, _⟩ => show win0_4.index t (0 : Fin 3) * 1 + 1 * 0 = t.val / 64; omega
  | ⟨1, _⟩ => show win0_4.index t (1 : Fin 3) * 1 + 1 * 0 = 0; omega
  | ⟨2, _⟩ => show win0_4.index t (2 : Fin 3) * 512 + 1 * j.val = 512 * (t.val % 8) + j.val; omega

theorem ky_blk (c : Dev nD) (t : Fin cfg0.N) (j : Fin 512) :
    ky m c t (ix3 (0 : Fin 1) (0 : Fin 1) j) = (V m c main_v10 : S4x1x4096.Idx → Elt F .f32) (ix3 (bOf t) (0 : Fin 1) (krow t j)) := by
  show (V m c main_v10 : S4x1x4096.Idx → Elt F .f32) (((cfg0.win 5).blk t).view.emb (ix3 (0 : Fin 1) (0 : Fin 1) j)) = _
  refine congrArg _ ?_
  obtain ⟨e0, e1, e2⟩ := idx_5 t
  funext a; apply Fin.ext
  match a with
  | ⟨0, _⟩ => show win0_5.index t (0 : Fin 3) * 1 + 1 * 0 = t.val / 64; omega
  | ⟨1, _⟩ => show win0_5.index t (1 : Fin 3) * 1 + 1 * 0 = 0; omega
  | ⟨2, _⟩ => show win0_5.index t (2 : Fin 3) * 512 + 1 * j.val = 512 * (t.val % 8) + j.val; omega

theorem kz_blk (c : Dev nD) (t : Fin cfg0.N) (j : Fin 512) :
    kz m c t (ix3 (0 : Fin 1) (0 : Fin 1) j) = (V m c main_v11 : S4x1x4096.Idx → Elt F .f32) (ix3 (bOf t) (0 : Fin 1) (krow t j)) := by
  show (V m c main_v11 : S4x1x4096.Idx → Elt F .f32) (((cfg0.win 6).blk t).view.emb (ix3 (0 : Fin 1) (0 : Fin 1) j)) = _
  refine congrArg _ ?_
  obtain ⟨e0, e1, e2⟩ := idx_6 t
  funext a; apply Fin.ext
  match a with
  | ⟨0, _⟩ => show win0_6.index t (0 : Fin 3) * 1 + 1 * 0 = t.val / 64; omega
  | ⟨1, _⟩ => show win0_6.index t (1 : Fin 3) * 1 + 1 * 0 = 0; omega
  | ⟨2, _⟩ => show win0_6.index t (2 : Fin 3) * 512 + 1 * j.val = 512 * (t.val % 8) + j.val; omega

theorem kr_blk (c : Dev nD) (t : Fin cfg0.N) (j : Fin 512) :
    kr m c t (ix3 (0 : Fin 1) (0 : Fin 1) j) = (V m c main_v13 : S4x1x4096.Idx → Elt F .f32) (ix3 (bOf t) (0 : Fin 1) (krow t j)) := by
  show (V m c main_v13 : S4x1x4096.Idx → Elt F .f32) (((cfg0.win 7).blk t).view.emb (ix3 (0 : Fin 1) (0 : Fin 1) j)) = _
  refine congrArg _ ?_
  obtain ⟨e0, e1, e2⟩ := idx_7 t
  funext a; apply Fin.ext
  match a with
  | ⟨0, _⟩ => show win0_7.index t (0 : Fin 3) * 1 + 1 * 0 = t.val / 64; omega
  | ⟨1, _⟩ => show win0_7.index t (1 : Fin 3) * 1 + 1 * 0 = 0; omega
  | ⟨2, _⟩ => show win0_7.index t (2 : Fin 3) * 512 + 1 * j.val = 512 * (t.val % 8) + j.val; omega
/-- The query tile's x, y, z and radius, row `r`. -/
theorem qx_apply (c : Dev nD) (t : Fin cfg0.N) (r : Fin 512) :
    qx m c t (ix3 (0 : Fin 1) r (0 : Fin 1)) = XA m c (ix3 (bOf t) (qrow t r) (0 : Fin 3)) := by
  rw [qx_blk, V_main_v6, col_apply, drop_apply]
  exact slice_apply (XA m c) ![0, 0, 0] slices_S4x4096x3_S4x4096x1_0_0_0 (0 : Fin 3) rfl rfl rfl _ _
theorem qy_apply (c : Dev nD) (t : Fin cfg0.N) (r : Fin 512) :
    qy m c t (ix3 (0 : Fin 1) r (0 : Fin 1)) = XA m c (ix3 (bOf t) (qrow t r) (1 : Fin 3)) := by
  rw [qy_blk, V_main_v7, col_apply, drop_apply]
  exact slice_apply (XA m c) ![0, 0, 1] slices_S4x4096x3_S4x4096x1_0_0_1 (1 : Fin 3) rfl rfl rfl _ _
theorem qz_apply (c : Dev nD) (t : Fin cfg0.N) (r : Fin 512) :
    qz m c t (ix3 (0 : Fin 1) r (0 : Fin 1)) = XA m c (ix3 (bOf t) (qrow t r) (2 : Fin 3)) := by
  rw [qz_blk, V_main_v8, col_apply, drop_apply]
  exact slice_apply (XA m c) ![0, 0, 2] slices_S4x4096x3_S4x4096x1_0_0_2 (2 : Fin 3) rfl rfl rfl _ _
theorem qr_apply (c : Dev nD) (t : Fin cfg0.N) (r : Fin 512) :
    qr m c t (ix3 (0 : Fin 1) r (0 : Fin 1)) = RA m c (ix2 (bOf t) (qrow t r)) := by
  rw [qr_blk, V_main_v12, col_apply]

/-- The key tile's x, y, z and radius, row `j`. -/
theorem kx_apply (c : Dev nD) (t : Fin cfg0.N) (j : Fin 512) :
    kx m c t (ix3 (0 : Fin 1) (0 : Fin 1) j) = XA m c (ix3 (bOf t) (krow t j) (0 : Fin 3)) := by
  rw [kx_blk, V_main_v9, row_apply, drop_apply]
  exact slice_apply (XA m c) ![0, 0, 0] slices_S4x4096x3_S4x4096x1_0_0_0 (0 : Fin 3) rfl rfl rfl _ _
theorem ky_apply (c : Dev nD) (t : Fin cfg0.N) (j : Fin 512) :
    ky m c t (ix3 (0 : Fin 1) (0 : Fin 1) j) = XA m c (ix3 (bOf t) (krow t j) (1 : Fin 3)) := by
  rw [ky_blk, V_main_v10, row_apply, drop_apply]
  exact slice_apply (XA m c) ![0, 0, 1] slices_S4x4096x3_S4x4096x1_0_0_1 (1 : Fin 3) rfl rfl rfl _ _
theorem kz_apply (c : Dev nD) (t : Fin cfg0.N) (j : Fin 512) :
    kz m c t (ix3 (0 : Fin 1) (0 : Fin 1) j) = XA m c (ix3 (bOf t) (krow t j) (2 : Fin 3)) := by
  rw [kz_blk, V_main_v11, row_apply, drop_apply]
  exact slice_apply (XA m c) ![0, 0, 2] slices_S4x4096x3_S4x4096x1_0_0_2 (2 : Fin 3) rfl rfl rfl _ _
theorem kr_apply (c : Dev nD) (t : Fin cfg0.N) (j : Fin 512) :
    kr m c t (ix3 (0 : Fin 1) (0 : Fin 1) j) = RA m c (ix2 (bOf t) (krow t j)) := by
  rw [kr_blk, V_main_v13, row_apply]

/-- Three columns `[4, 4096, 1]` joined along the last axis into `[4, 4096, 3]`: entry `(b, n, k)` is column `k`'s entry `(b, n, 0)`. -/
theorem concat_apply (u0 u1 u2 : Vec F S4x4096x1 .f32) (b : Fin 4) (n : Fin 4096) (k : Fin 3) :
    concatenate S4x4096x3 2 [⟨S4x4096x1, u0⟩, ⟨S4x4096x1, u1⟩, ⟨S4x4096x1, u2⟩] Facts₀.concatenates_S4x4096x1_S4x4096x1_S4x4096x1_S4x4096x3_d2 (ix3 b n k)
      = (![u0, u1, u2] k) (ix3 b n (0 : Fin 1)) := by
  refine concatenate_ofFn_unit_apply (t := S4x4096x3) (s₁ := S4x4096x1) (2 : Fin 3) ![u0, u1, u2] _ rfl rfl (ix3 b n k) k rfl (ix3 b n (0 : Fin 1)) (fun a ha => ?_)
  match a, ha with
  | ⟨0, _⟩, _ => rfl
  | ⟨1, _⟩, _ => rfl
  | ⟨2, _⟩, ha => exact absurd (Fin.ext rfl) ha

end Cert.KernelIdeal.Glue

end
-- ==== Proof.Spec.lean ====
/-
  What both programs compute, as one function of the two argument arrays.

  A point cloud `X : [4, 4096, 3]` with radii `R : [4, 4096]`.  For a batch `b`, a point `n` and another point `m` of the
  same batch put `d = X[b,n,·] − X[b,m,·]` (three differences), `d2 = dx·dx + dy·dy + dz·dz`, the distance
  `dist = √d2` where `d2 > 0` and `0` elsewhere, the wanted gap `max 1 (R[b,n] + R[b,m])`, the penalty
  `max (gap − dist) 0`, and for a coordinate `c` the direction `min 1 (max (−1) d_c)`.  The result moves each coordinate by a
  tenth of the mean over `m` of penalty times direction:
      `G X R [b,n,c] = X[b,n,c] + 0.1 · ((∑ m, pen · dir_c) · 2⁻¹²)`.
  All of it is read on the extended reals, the float literals standing for the numbers their bit patterns denote.
-/
import Idealize.ShloMosaic.PureOps.Ideal
import Idealize.ShloMosaic.Lib.ValueIdx

noncomputable section

open scoped BigOperators

namespace Cert.Steric

open Idealize.ShloMosaic Idealize.ShloMosaic.ValueIdx

/-- The literals the two programs spell. -/
abbrev zeroL : Ideal .f32 := Ideal.ofBits .f32 0x00000000#32
abbrev oneL : Ideal .f32 := Ideal.ofBits .f32 0x3F800000#32
abbrev negOneL : Ideal .f32 := Ideal.ofBits .f32 0xBF800000#32
abbrev tenthL : Ideal .f32 := Ideal.ofBits .f32 0x3DCCCCCD#32
/-- `2⁻¹²`, the kernel's reciprocal of the number of points. -/
abbrev invNL : Ideal .f32 := Ideal.ofBits .f32 0x39800000#32
/-- `4096`, the reference's divisor. -/
abbrev nL : Ideal .f32 := Ideal.ofBits .f32 0x45800000#32

/-- The squared distance from the three coordinate differences, summed in the kernel's order. -/
def d2s (dx dy dz : Ideal .f32) : Ideal .f32 := dx * dx + dy * dy + dz * dz

/-- The distance from its square: the root where the square is positive, zero elsewhere (the root taken of `1` there). -/
def dist (d2 : Ideal .f32) : Ideal .f32 :=
  Scalar.select (FloatOps.cmpf (F := Ideal) .ogt d2 zeroL) (Ideal.sqrt (Scalar.select (FloatOps.cmpf (F := Ideal) .ogt d2 zeroL) d2 oneL)) zeroL

/-- The penalty of a pair: how far the distance falls short of the wanted gap `max 1 s`, never negative. -/
def pen (d2 s : Ideal .f32) : Ideal .f32 := max (max oneL s - dist d2) zeroL

/-- A coordinate difference clipped to `[−1, 1]`. -/
def clip (d : Ideal .f32) : Ideal .f32 := min oneL (max negOneL d)

/-- One pair's contribution to coordinate `c`: the penalty (from all three differences and the radii's sum `s`) times the
    clipped difference `d` of that coordinate. -/
def pairTerm (dx dy dz s d : Ideal .f32) : Ideal .f32 := pen (d2s dx dy dz) s * clip d

/-- The contribution of the pair `(n, m)` of batch `b` to coordinate `c`. -/
def term (X : FVec Ideal ⟨3, ![4, 4096, 3]⟩ .f32) (R : FVec Ideal ⟨2, ![4, 4096]⟩ .f32) (b : Fin 4) (n m : Fin 4096) (c : Fin 3) :
    Ideal .f32 :=
  pairTerm (X (ix3 b n (0 : Fin 3)) - X (ix3 b m (0 : Fin 3))) (X (ix3 b n (1 : Fin 3)) - X (ix3 b m (1 : Fin 3)))
    (X (ix3 b n (2 : Fin 3)) - X (ix3 b m (2 : Fin 3))) (R (ix2 b n) + R (ix2 b m)) (X (ix3 b n c) - X (ix3 b m c))

/-- The sum over all partners `m`. -/
def total (X : FVec Ideal ⟨3, ![4, 4096, 3]⟩ .f32) (R : FVec Ideal ⟨2, ![4, 4096]⟩ .f32) (b : Fin 4) (n : Fin 4096) (c : Fin 3) :
    Ideal .f32 := ∑ m : Fin 4096, term X R b n m c

/-- THE RESULT, at an entry. -/
def G (X : FVec Ideal ⟨3, ![4, 4096, 3]⟩ .f32) (R : FVec Ideal ⟨2, ![4, 4096]⟩ .f32) : FVec Ideal ⟨3, ![4, 4096, 3]⟩ .f32 :=
  fun j => X (ix3 (j 0) (j 1) (j 2)) + tenthL * (total X R (j 0) (j 1) (j 2) * invNL)

theorem G_apply (X : FVec Ideal ⟨3, ![4, 4096, 3]⟩ .f32) (R : FVec Ideal ⟨2, ![4, 4096]⟩ .f32) (b : Fin 4) (n : Fin 4096) (c : Fin 3) :
    G X R (ix3 b n c) = X (ix3 b n c) + tenthL * (total X R b n c * invNL) := rfl

end Cert.Steric

end
-- ==== Proof.KernelSteps.lean ====
/-
  The kernel body's arithmetic, read at an entry on the extended reals.

  At a grid point the body holds a tile of 512 query points (their three coordinates and radius as columns `[1, 512, 1]`) and a
  tile of 512 key points (as rows `[1, 1, 512]`).  Each of its three accumulators gains, in row `r`, the sum over the 512 keys
  `j` of the pair's penalty times the clipped difference of that accumulator's coordinate; at a reset the accumulator is
  zero; and what is finally written for a coordinate is the query's coordinate plus a tenth of the accumulator times `2⁻¹²`.
-/
import proofs.«155617_j67714454389373_1_alg».proof.Proof.Gen.KernelIdeal.Skeleton
import proofs.«155617_j67714454389373_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Steps

open Cert.KernelIdeal Cert.KernelIdeal.Gen Cert.Steric
open Idealize.ShloMosaic Idealize.ShloMosaic.ValueIdx

/-! ## The layout operations of the body, read at explicit coordinates -/

section Layout
variable {α : Type}

/-- A vector `[a]` cast to the column `[a, 1]` reads, at `(i, u)`, the vector at `i`. -/
theorem shapeCast_a_a1_apply {n : ℕ} (x : (⟨1, ![n]⟩ : Shape).Idx → α) (h : (⟨1, ![n]⟩ : Shape).ShapeCasts ⟨2, ![n, 1]⟩)
    (i : Fin n) (u : Fin 1) : shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {m n : ℕ} (v : (⟨2, ![m, 1]⟩ : Shape).Idx → α) (h : (⟨2, ![m, 1]⟩ : Shape).Broadcasts ⟨2, ![m, n]⟩)
    (p : Fin m) (c : Fin n) : broadcastTo ⟨2, ![m, n]⟩ v h (ix2 p c) = v (ix2 p (0 : Fin 1)) := by
  refine broadcastTo_apply v h (ix2 p c) (ix2 p (0 : Fin 1)) fun ax => ?_
  match ax with
  | ⟨0, _⟩ =>
    show p.val = if m = 1 then 0 else p.val
    split
    · have := p.isLt; omega
    · rfl
  | ⟨1, _⟩ => rfl

end Layout

/-- The sum along the lanes of a `512 × 512` tile, read at row `r`: the sum over the 512 lanes of that row. -/
theorem laneSum_apply (v : FVec Ideal S512x512 .f32) (r : Fin 512) :
    multiReduction (F := Ideal) .add [1] S512 v 0x00000000#32 reduces_S512x512_S512 (.inl rfl) rfl (ix1 r) = ∑ j : Fin 512, v (ix2 r j) := by
  refine (Ideal.multiReduction_add_single v _ reduces_S512x512_S512 (.inl rfl) rfl (ix1 r)).trans ?_
  refine Finset.sum_congr rfl fun j _ => congrArg v ?_
  funext c
  match c with
  | ⟨0, _⟩ => rfl
  | ⟨1, _⟩ => rfl

/-! ## The payloads, read at an entry -/

section Pay
variable (q : Vec Ideal S1x512x1 .f32) (k : Vec Ideal S1x1x512 .f32)

/-- A query column of the tile, as the column `[512, 1]`. -/
theorem col_apply (r : Fin 512) (u : Fin 1) :
    shapeCast S512x1 q shapeCasts_S1x512x1_S512x1 (ix2 r u) = q (ix3 (0 : Fin 1) r u) :=
  shapeCast_1ab_ab_apply q shapeCasts_S1x512x1_S512x1 r u

/-- A key row of the tile, as the row `[1, 512]`. -/
theorem row_apply (u : Fin 1) (j : Fin 512) :
    shapeCast S1x512 k shapeCasts_S1x1x512_S1x512 (ix2 u j) = k (ix3 (0 : Fin 1) u j) :=
  shapeCast_1ab_ab_apply k shapeCasts_S1x1x512_S1x512 u j

theorem pay10_apply (r : Fin 512) : k0_pay10 (F := Ideal) q (ix2 r (0 : Fin 1)) = q (ix3 0 r 0) := by
  unfold k0_pay10
  exact col_apply q r 0

theorem pay11_apply (j : Fin 512) : k0_pay11 (F := Ideal) k (ix2 (0 : Fin 1) j) = k (ix3 0 0 j) := by
  unfold k0_pay11
  exact row_apply k 0 j

/-- The difference of a coordinate between query `r` and key `j`. -/
theorem diff_apply (r j : Fin 512) :
    subf (F := Ideal) (φ := .f32) (broadcastTo S512x512 (shapeCast S512x1 q shapeCasts_S1x512x1_S512x1) broadcasts_S512x1_S512x512)
        (broadcastTo S512x512 (shapeCast S1x512 k shapeCasts_S1x1x512_S1x512) broadcasts_S1x512_S512x512) (ix2 r j)
      = q (ix3 0 r 0) - k (ix3 0 0 j) := by
  rw [subf_apply]
  refine congrArg₂ (· - ·) ?_ ?_
  · exact (broadcastTo_a1_ab_apply _ broadcasts_S512x1_S512x512 r j).trans (col_apply q r 0)
  · exact (broadcastTo_1b_ab_apply _ broadcasts_S1x512_S512x512 r j).trans (row_apply k 0 j)

theorem pay12_apply (r j : Fin 512) : k0_pay12 (F := Ideal) q k (ix2 r j) = q (ix3 0 r 0) - k (ix3 0 0 j) := by
  unfold k0_pay12
  exact diff_apply q k r j

theorem pay13_apply (r j : Fin 512) : k0_pay13 (F := Ideal) q k (ix2 r j) = q (ix3 0 r 0) - k (ix3 0 0 j) := by
  unfold k0_pay13
  exact diff_apply q k r j

theorem pay14_apply (r j : Fin 512) : k0_pay14 (F := Ideal) q k (ix2 r j) = q (ix3 0 r 0) - k (ix3 0 0 j) := by
  unfold k0_pay14
  exact diff_apply q k r j

theorem pay15_apply (r j : Fin 512) :
    k0_pay15 (F := Ideal) q k (ix2 r j) = (q (ix3 0 r 0) - k (ix3 0 0 j)) * (q (ix3 0 r 0) - k (ix3 0 0 j)) := by
  unfold k0_pay15
  rw [mulf_apply, pay12_apply]

theorem pay16_apply (r j : Fin 512) :
    k0_pay16 (F := Ideal) q k (ix2 r j) = (q (ix3 0 r 0) - k (ix3 0 0 j)) * (q (ix3 0 r 0) - k (ix3 0 0 j)) := by
  unfold k0_pay16
  rw [mulf_apply, pay13_apply]

end Pay

section Pen
variable (v10 : FVec Ideal S512x1 .f32) (v18 : FVec Ideal S1x512 .f32) (v27 v28 v29 : FVec Ideal S512x512 .f32)

/-- The penalty of the pair `(r, j)` from the tile's squared differences and radii. -/
theorem pay17_apply (r j : Fin 512) :
    k0_pay17 (F := Ideal) v10 v18 v27 v28 v29 (ix2 r j)
      = pen (v28 (ix2 r j) + v29 (ix2 r j) + v27 (ix2 r j) * v27 (ix2 r j)) (v10 (ix2 r (0 : Fin 1)) + v18 (ix2 (0 : Fin 1) j)) := by
  unfold k0_pay17
  show max (max oneL (broadcastTo S512x512 v10 broadcasts_S512x1_S512x512 (ix2 r j) + broadcastTo S512x512 v18 broadcasts_S1x512_S512x512 (ix2 r j))
      - dist (v28 (ix2 r j) + v29 (ix2 r j) + v27 (ix2 r j) * v27 (ix2 r j))) zeroL = _
  rw [broadcastTo_a1_ab_apply v10 broadcasts_S512x1_S512x512 r j, broadcastTo_1b_ab_apply v18 broadcasts_S1x512_S512x512 r j]
  rfl

/-- A clipped difference. -/
theorem pay18_apply (i : S512x512.Idx) : k0_pay18 (F := Ideal) v27 i = clip (v27 i) := rfl

end Pen

/-! ## The three accumulators, the resets and the written coordinates -/

variable (xq yq zq rq : Vec Ideal S1x512x1 .f32) (xk yk zk rk : Vec Ideal S1x1x512 .f32) (a : Vec Ideal S512x1 .f32)

/-- An accumulator's update, in row `r`: its previous contents plus the sum along the lanes of the tile it gains. -/
theorem accum_apply (v : FVec Ideal S512x512 .f32) (r : Fin 512) :
    shapeCast S512x1
        (addf (F := Ideal) (φ := .f32) a
          (shapeCast S512x1 (multiReduction (F := Ideal) .add [1] S512 v 0x00000000#32 reduces_S512x512_S512 (.inl rfl) rfl)
            shapeCasts_S512_S512x1))
        shapeCasts_S512x1_S512x1 (ix2 r (0 : Fin 1))
      = a (ix2 r (0 : Fin 1)) + ∑ j : Fin 512, v (ix2 r j) := by
  rw [shapeCast_self, addf_apply]
  refine congrArg (a (ix2 r (0 : Fin 1)) + ·) ?_
  exact (shapeCast_a_a1_apply _ shapeCasts_S512_S512x1 r 0).trans (laneSum_apply v r)

/-- The penalty of the pair `(r, j)` of the tile, from the three differences and the two radii. -/
theorem pen_apply (r j : Fin 512) :
    k0_pay17 (F := Ideal) (k0_pay10 rq) (k0_pay11 rk) (k0_pay14 zq zk) (k0_pay15 xq xk) (k0_pay16 yq yk) (ix2 r j)
      = pen (d2s (xq (ix3 0 r 0) - xk (ix3 0 0 j)) (yq (ix3 0 r 0) - yk (ix3 0 0 j)) (zq (ix3 0 r 0) - zk (ix3 0 0 j)))
          (rq (ix3 0 r 0) + rk (ix3 0 0 j)) := by
  rw [pay17_apply, pay10_apply, pay11_apply, pay14_apply, pay15_apply, pay16_apply]
  rfl

/-- The x accumulator after a point, in row `r`. -/
theorem acc0_step (r : Fin 512) :
    k0_pay19 (F := Ideal) (k0_pay10 rq) (k0_pay11 rk) (k0_pay12 xq xk) (k0_pay14 zq zk) (k0_pay15 xq xk) (k0_pay16 yq yk) a (ix2 r (0 : Fin 1))
      = a (ix2 r (0 : Fin 1)) + ∑ j : Fin 512, pairTerm (xq (ix3 0 r 0) - xk (ix3 0 0 j)) (yq (ix3 0 r 0) - yk (ix3 0 0 j)) (zq (ix3 0 r 0) - zk (ix3 0 0 j)) (rq (ix3 0 r 0) + rk (ix3 0 0 j)) (xq (ix3 0 r 0) - xk (ix3 0 0 j)) := by
  unfold k0_pay19
  refine (accum_apply a _ r).trans ?_
  refine congrArg (a (ix2 r (0 : Fin 1)) + ·) (Finset.sum_congr rfl fun j _ => ?_)
  show k0_pay17 (F := Ideal) (k0_pay10 rq) (k0_pay11 rk) (k0_pay14 zq zk) (k0_pay15 xq xk) (k0_pay16 yq yk) (ix2 r j)
      * clip (k0_pay12 (F := Ideal) xq xk (ix2 r j)) = _
  rw [pen_apply, pay12_apply]
  rfl

/-- The y accumulator after a point, in row `r`. -/
theorem acc1_step (r : Fin 512) :
    k0_pay1 (F := Ideal) a (k0_pay20 (k0_pay10 rq) (k0_pay11 rk) (k0_pay13 yq yk) (k0_pay14 zq zk) (k0_pay15 xq xk) (k0_pay16 yq yk)) (ix2 r (0 : Fin 1))
      = a (ix2 r (0 : Fin 1)) + ∑ j : Fin 512, pairTerm (xq (ix3 0 r 0) - xk (ix3 0 0 j)) (yq (ix3 0 r 0) - yk (ix3 0 0 j)) (zq (ix3 0 r 0) - zk (ix3 0 0 j)) (rq (ix3 0 r 0) + rk (ix3 0 0 j)) (yq (ix3 0 r 0) - yk (ix3 0 0 j)) := by
  unfold k0_pay1
  refine (accum_apply a _ r).trans ?_
  refine congrArg (a (ix2 r (0 : Fin 1)) + ·) (Finset.sum_congr rfl fun j _ => ?_)
  unfold k0_pay20
  show k0_pay17 (F := Ideal) (k0_pay10 rq) (k0_pay11 rk) (k0_pay14 zq zk) (k0_pay15 xq xk) (k0_pay16 yq yk) (ix2 r j)
      * clip (k0_pay13 (F := Ideal) yq yk (ix2 r j)) = _
  rw [pen_apply, pay13_apply]
  rfl

/-- The z accumulator after a point, in row `r`. -/
theorem acc2_step (r : Fin 512) :
    k0_pay2 (F := Ideal) (k0_pay17 (k0_pay10 rq) (k0_pay11 rk) (k0_pay14 zq zk) (k0_pay15 xq xk) (k0_pay16 yq yk)) (k0_pay18 (k0_pay14 zq zk)) a (ix2 r (0 : Fin 1))
      = a (ix2 r (0 : Fin 1)) + ∑ j : Fin 512, pairTerm (xq (ix3 0 r 0) - xk (ix3 0 0 j)) (yq (ix3 0 r 0) - yk (ix3 0 0 j)) (zq (ix3 0 r 0) - zk (ix3 0 0 j)) (rq (ix3 0 r 0) + rk (ix3 0 0 j)) (zq (ix3 0 r 0) - zk (ix3 0 0 j)) := by
  unfold k0_pay2
  refine (accum_apply a _ r).trans ?_
  refine congrArg (a (ix2 r (0 : Fin 1)) + ·) (Finset.sum_congr rfl fun j _ => ?_)
  rw [mulf_apply, pen_apply, pay18_apply, pay14_apply]
  rfl

/-- A reset accumulator is zero everywhere. -/
theorem reset0 (r : Fin 512) : k0_pay7 (F := Ideal) (ix2 r (0 : Fin 1)) = zeroL := by
  unfold k0_pay7
  rw [shapeCast_self]
  rfl
theorem reset1 (r : Fin 512) : k0_pay8 (F := Ideal) (ix2 r (0 : Fin 1)) = zeroL := by
  unfold k0_pay8
  rw [shapeCast_self]
  rfl
theorem reset2 (r : Fin 512) : k0_pay9 (F := Ideal) (ix2 r (0 : Fin 1)) = zeroL := by
  unfold k0_pay9
  rw [shapeCast_self]
  rfl

/-- A query coordinate moved by a tenth of its accumulator times `2⁻¹²`, in row `r` of the column `[512, 1]`. -/
theorem moved_apply (q : Vec Ideal S1x512x1 .f32) (r : Fin 512) :
    addf (F := Ideal) (φ := .f32) (shapeCast S512x1 q shapeCasts_S1x512x1_S512x1)
        (mulf (mulf (broadcast S512x1 (Scalar.ofBits (F := Ideal) .f32 0x3DCCCCCD#32)) a) (broadcast S512x1 (Scalar.ofBits (F := Ideal) .f32 0x39800000#32)))
        (ix2 r (0 : Fin 1))
      = q (ix3 0 r 0) + tenthL * a (ix2 r (0 : Fin 1)) * invNL := by
  rw [addf_apply, col_apply]
  rfl

/-- What is written for the x coordinate, in row `r`. -/
theorem out0_val (r : Fin 512) :
    k0_pay4 (F := Ideal) xq a (ix3 (0 : Fin 1) r (0 : Fin 1)) = xq (ix3 0 r 0) + tenthL * a (ix2 r (0 : Fin 1)) * invNL := by
  unfold k0_pay4
  exact (shapeCast_ab_1ab_apply _ shapeCasts_S512x1_S1x512x1 0 r 0).trans (moved_apply a xq r)
/-- For the y coordinate. -/
theorem out1_val (r : Fin 512) :
    k0_pay5 (F := Ideal) yq a (ix3 (0 : Fin 1) r (0 : Fin 1)) = yq (ix3 0 r 0) + tenthL * a (ix2 r (0 : Fin 1)) * invNL := by
  unfold k0_pay5
  exact (shapeCast_ab_1ab_apply _ shapeCasts_S512x1_S1x512x1 0 r 0).trans (moved_apply a yq r)
/-- For the z coordinate. -/
theorem out2_val (r : Fin 512) :
    k0_pay3 (F := Ideal) (k0_pay6 zq a) (ix3 (0 : Fin 1) r (0 : Fin 1)) = zq (ix3 0 r 0) + tenthL * a (ix2 r (0 : Fin 1)) * invNL := by
  unfold k0_pay3 k0_pay6
  exact (shapeCast_ab_1ab_apply _ shapeCasts_S512x1_S1x512x1 0 r 0).trans (moved_apply a zq r)

end Cert.KernelIdeal.Steps

end
-- ==== Proof.Algebra.lean ====
/-
  The arithmetic the two programs' agreement rests on: what three of the literals denote, division by the number of
  points as multiplication by its reciprocal, and a sum over 4096 indices as eight consecutive runs of 512.
-/
import proofs.«155617_j67714454389373_1_alg».proof.Proof.Spec
import Mathlib.Algebra.BigOperators.Fin
import Mathlib.Algebra.BigOperators.Intervals

noncomputable section

open scoped BigOperators

namespace Cert.Steric

open Idealize.ShloMosaic

/-- The zero literal denotes zero. -/
theorem zeroL_eq : zeroL = 0 := by
  simp [Ideal.ofBits, Ideal.ieee]

/-- The kernel's reciprocal literal denotes `1/4096`. -/
theorem invNL_eq : invNL = ((1 / 4096 : ℝ) : EReal) := by
  simp [Ideal.ofBits, Ideal.ieee, -EReal.coe_mul]; norm_num

/-- The reference's divisor literal denotes `4096`. -/
theorem nL_eq : nL = ((4096 : ℝ) : EReal) := by
  simp [Ideal.ofBits, Ideal.ieee, -EReal.coe_mul]; norm_num

/-- Dividing by the number of points is multiplying by the kernel's reciprocal literal, on every extended real. -/
theorem div_nL (x : EReal) : Ideal.div x nL = x * invNL := by
  rw [nL_eq, invNL_eq]
  exact Ideal.div_coe (by norm_num) x

/-- A sum over 4096 indices, cut into eight consecutive runs of 512. -/
theorem sum_runs (f : ℕ → EReal) :
    ∑ m : Fin 4096, f m.val = ∑ k ∈ Finset.range 8, ∑ j : Fin 512, f (512 * k + j.val) := by
  rw [← Fin.sum_univ_eq_sum_range (fun k => ∑ j : Fin 512, f (512 * k + j.val)) 8]
  have h := Equiv.sum_comp (finProdFinEquiv (m := 8) (n := 512)) (fun m : Fin (8 * 512) => f m.val)
  rw [Fintype.sum_prod_type] at h
  simp only [finProdFinEquiv_apply_val] at h
  rw [← h]
  refine Finset.sum_congr rfl fun k _ => Finset.sum_congr rfl fun j _ => ?_
  rw [Nat.add_comm]

end Cert.Steric

end
-- ==== Proof.Accum.lean ====
/-
  What the kernel writes, as values of the two argument arrays.

  Along the eight key tiles of one query tile each accumulator, in row `r`, runs through the partial sums of the pairs'
  contributions: after key tile `k` it holds zero plus the sum over the first `k + 1` runs of 512 partners.  After the last
  key tile that is the sum over all 4096 partners, and what is written for coordinate `c` of query point `n` is
  `X[b,n,c] + 0.1 · (total · 2⁻¹²)`: the specification `G`.
-/
import proofs.«155617_j67714454389373_1_alg».proof.Proof.FrameKernelIdeal.Pieces
import proofs.«155617_j67714454389373_1_alg».proof.Proof.HostGlue
import proofs.«155617_j67714454389373_1_alg».proof.Proof.KernelSteps
import proofs.«155617_j67714454389373_1_alg».proof.Proof.Algebra

set_option maxRecDepth 16384

noncomputable section

open scoped BigOperators

namespace Cert.KernelIdeal.Val

open Cert.KernelIdeal Cert.KernelIdeal.Gen Cert.KernelIdeal.Fr Cert.KernelIdeal.Glue Cert.KernelIdeal.Steps Cert.Steric
open Idealize.ShloMosaic Idealize.ShloMosaic.TcCoe Idealize.ShloMosaic.ValueIdx Idealize.SL.Sem

variable (m : (ℓ : Loc nD τ sig) → Buf (Elt Ideal) ℓ)

/-! ## Partial sums over runs of 512 partners -/

/-- Zero plus the sum of `f` over the first `q + 1` runs of 512 consecutive indices. -/
def runs (f : ℕ → Ideal .f32) (q : ℕ) : Ideal .f32 :=
  zeroL + ∑ k ∈ Finset.range (q + 1), ∑ j : Fin 512, f (512 * k + j.val)

theorem runs_zero (f : ℕ → Ideal .f32) : runs f 0 = zeroL + ∑ j : Fin 512, f (512 * 0 + j.val) := by
  unfold runs
  rw [Finset.sum_range_one]

theorem runs_succ (f : ℕ → Ideal .f32) (q : ℕ) :
    runs f (q + 1) = runs f q + ∑ j : Fin 512, f (512 * (q + 1) + j.val) := by
  unfold runs
  rw [Finset.sum_range_succ, add_assoc]

/-- All eight runs make the sum over the 4096 indices. -/
theorem runs_seven (f : ℕ → Ideal .f32) : runs f 7 = ∑ p : Fin 4096, f p.val := by
  unfold runs
  rw [zeroL_eq, zero_add, sum_runs]

/-! ## A pair's contribution, by the partner's position among the batch's points -/

/-- The contribution of the pair `(n, p)` to coordinate `k`, the partner given by its position (zero past the last). -/
def termN (X : FVec Ideal ⟨3, ![4, 4096, 3]⟩ .f32) (R : FVec Ideal ⟨2, ![4, 4096]⟩ .f32) (b : Fin 4) (n : Fin 4096) (k : Fin 3) (p : ℕ) :
    Ideal .f32 :=
  if h : p < 4096 then term X R b n ⟨p, h⟩ k else 0

theorem sum_termN (X : FVec Ideal ⟨3, ![4, 4096, 3]⟩ .f32) (R : FVec Ideal ⟨2, ![4, 4096]⟩ .f32) (b : Fin 4) (n : Fin 4096) (k : Fin 3) :
    ∑ p : Fin 4096, termN X R b n k p.val = total X R b n k := by
  unfold total
  refine Finset.sum_congr rfl fun p _ => ?_
  unfold termN
  rw [dif_pos p.isLt]

/-- At a grid point the partner at position `512 · (key tile) + j` is row `j` of the key tile. -/
theorem termN_krow (c : Dev nD) (t : Fin cfg0.N) (r j : Fin 512) (k : Fin 3) :
    termN (XA m c) (RA m c) (bOf t) (qrow t r) k (512 * (t.val % 8) + j.val) = term (XA m c) (RA m c) (bOf t) (qrow t r) (krow t j) k := by
  unfold termN
  rw [dif_pos (by have := j.isLt; omega)]
  rfl

/-! ## One point's step of each accumulator, at the point's blocks -/

section Step
variable (c : Dev nD) (t : Fin cfg0.N) (a : Vec Ideal S512x1 .f32) (r : Fin 512)

/-- The x accumulator gains the contributions of the key tile's 512 partners. -/
theorem step0_apply :
    step0 (qx m c t) (qy m c t) (qz m c t) (qr m c t) (kx m c t) (ky m c t) (kz m c t) (kr m c t) a (ix2 r (0 : Fin 1))
      = a (ix2 r (0 : Fin 1)) + ∑ j : Fin 512, termN (XA m c) (RA m c) (bOf t) (qrow t r) 0 (512 * (t.val % 8) + j.val) := by
  unfold step0
  refine (acc0_step (qx m c t) (qy m c t) (qz m c t) (qr m c t) (kx m c t) (ky m c t) (kz m c t) (kr m c t) a r).trans ?_
  refine congrArg (a (ix2 r (0 : Fin 1)) + ·) (Finset.sum_congr rfl fun j _ => ?_)
  rw [termN_krow, qx_apply, qy_apply, qz_apply, qr_apply, kx_apply, ky_apply, kz_apply, kr_apply]
  rfl

/-- The y accumulator likewise. -/
theorem step1_apply :
    step1 (qx m c t) (qy m c t) (qz m c t) (qr m c t) (kx m c t) (ky m c t) (kz m c t) (kr m c t) a (ix2 r (0 : Fin 1))
      = a (ix2 r (0 : Fin 1)) + ∑ j : Fin 512, termN (XA m c) (RA m c) (bOf t) (qrow t r) 1 (512 * (t.val % 8) + j.val) := by
  unfold step1
  refine (acc1_step (qx m c t) (qy m c t) (qz m c t) (qr m c t) (kx m c t) (ky m c t) (kz m c t) (kr m c t) a r).trans ?_
  refine congrArg (a (ix2 r (0 : Fin 1)) + ·) (Finset.sum_congr rfl fun j _ => ?_)
  rw [termN_krow, qx_apply, qy_apply, qz_apply, qr_apply, kx_apply, ky_apply, kz_apply, kr_apply]
  rfl

/-- The z accumulator likewise. -/
theorem step2_apply :
    step2 (qx m c t) (qy m c t) (qz m c t) (qr m c t) (kx m c t) (ky m c t) (kz m c t) (kr m c t) a (ix2 r (0 : Fin 1))
      = a (ix2 r (0 : Fin 1)) + ∑ j : Fin 512, termN (XA m c) (RA m c) (bOf t) (qrow t r) 2 (512 * (t.val % 8) + j.val) := by
  unfold step2
  refine (acc2_step (qx m c t) (qy m c t) (qz m c t) (qr m c t) (kx m c t) (ky m c t) (kz m c t) (kr m c t) a r).trans ?_
  refine congrArg (a (ix2 r (0 : Fin 1)) + ·) (Finset.sum_congr rfl fun j _ => ?_)
  rw [termN_krow, qx_apply, qy_apply, qz_apply, qr_apply, kx_apply, ky_apply, kz_apply, kr_apply]
  rfl

end Step

/-! ## The accumulators along the positions -/

/-- Where the key tile is the first the accumulators restart: one step from the reset value. -/
theorem sc_first (c : Dev nD) (t : Fin cfg0.N) (h0 : t.val % 8 = 0) :
    scAt0 m c t.val t.isLt
      = (step0 (qx m c t) (qy m c t) (qz m c t) (qr m c t) (kx m c t) (ky m c t) (kz m c t) (kr m c t) (k0_pay7 (F := Ideal)),
         step1 (qx m c t) (qy m c t) (qz m c t) (qr m c t) (kx m c t) (ky m c t) (kz m c t) (kr m c t) (k0_pay8 (F := Ideal)),
         step2 (qx m c t) (qy m c t) (qz m c t) (qr m c t) (kx m c t) (ky m c t) (kz m c t) (kr m c t) (k0_pay9 (F := Ideal))) := by
  rw [scAt0_A m c t h0 (by omega)]
  exact congrArg₂ Prod.mk (sout0_A_0_eq ..) (congrArg₂ Prod.mk (sout0_A_1_eq ..) (sout0_A_2_eq ..))

/-- Elsewhere they go one step on from what the position before left. -/
theorem sc_next (c : Dev nD) (t : Fin cfg0.N) (h0 : ¬t.val % 8 = 0) :
    scAt0 m c t.val t.isLt
      = (step0 (qx m c t) (qy m c t) (qz m c t) (qr m c t) (kx m c t) (ky m c t) (kz m c t) (kr m c t)
            (scAt0 m c (t.val - 1) (Nat.lt_of_le_of_lt (Nat.sub_le _ _) t.isLt)).1,
         step1 (qx m c t) (qy m c t) (qz m c t) (qr m c t) (kx m c t) (ky m c t) (kz m c t) (kr m c t)
            (scAt0 m c (t.val - 1) (Nat.lt_of_le_of_lt (Nat.sub_le _ _) t.isLt)).2.1,
         step2 (qx m c t) (qy m c t) (qz m c t) (qr m c t) (kx m c t) (ky m c t) (kz m c t) (kr m c t)
            (scAt0 m c (t.val - 1) (Nat.lt_of_le_of_lt (Nat.sub_le _ _) t.isLt)).2.2) := by
  by_cases h1 : t.val % 8 = 7
  · rw [scAt0_C m c t h0 h1]
    exact congrArg₂ Prod.mk (sout0_C_0_eq ..) (congrArg₂ Prod.mk (sout0_C_1_eq ..) (sout0_C_2_eq ..))
  · rw [scAt0_B m c t h0 h1]
    exact congrArg₂ Prod.mk (sout0_B_0_eq ..) (congrArg₂ Prod.mk (sout0_B_1_eq ..) (sout0_B_2_eq ..))

/-- Within a query tile the position before has the same batch and the same query rows. -/
theorem bOf_pred (n : ℕ) (hn : n + 1 < cfg0.N) (h0 : ¬(n + 1) % 8 = 0) :
    bOf ⟨n + 1, hn⟩ = bOf ⟨n, Nat.lt_of_succ_lt hn⟩ :=
  Fin.ext (by show (n + 1) / 64 = n / 64; omega)

theorem qrow_pred (n : ℕ) (hn : n + 1 < cfg0.N) (h0 : ¬(n + 1) % 8 = 0) (r : Fin 512) :
    qrow ⟨n + 1, hn⟩ r = qrow ⟨n, Nat.lt_of_succ_lt hn⟩ r :=
  Fin.ext (by show 512 * ((n + 1) / 8 % 8) + r.val = 512 * (n / 8 % 8) + r.val; omega)

/-- After position `n` each accumulator holds, in row `r`, zero plus the contributions of the partners of the key tiles so far. -/
theorem acc_inv (c : Dev nD) : ∀ (n : ℕ) (hn : n < cfg0.N) (r : Fin 512),
    (scAt0 m c n hn).1 (ix2 r (0 : Fin 1)) = runs (termN (XA m c) (RA m c) (bOf ⟨n, hn⟩) (qrow ⟨n, hn⟩ r) 0) (n % 8)
    ∧ (scAt0 m c n hn).2.1 (ix2 r (0 : Fin 1)) = runs (termN (XA m c) (RA m c) (bOf ⟨n, hn⟩) (qrow ⟨n, hn⟩ r) 1) (n % 8)
    ∧ (scAt0 m c n hn).2.2 (ix2 r (0 : Fin 1)) = runs (termN (XA m c) (RA m c) (bOf ⟨n, hn⟩) (qrow ⟨n, hn⟩ r) 2) (n % 8) := by
  have first : ∀ (t : Fin cfg0.N) (h0 : t.val % 8 = 0) (r : Fin 512),
      (scAt0 m c t.val t.isLt).1 (ix2 r (0 : Fin 1)) = runs (termN (XA m c) (RA m c) (bOf t) (qrow t r) 0) (t.val % 8)
      ∧ (scAt0 m c t.val t.isLt).2.1 (ix2 r (0 : Fin 1)) = runs (termN (XA m c) (RA m c) (bOf t) (qrow t r) 1) (t.val % 8)
      ∧ (scAt0 m c t.val t.isLt).2.2 (ix2 r (0 : Fin 1)) = runs (termN (XA m c) (RA m c) (bOf t) (qrow t r) 2) (t.val % 8) := by
    intro t h0 r
    rw [sc_first m c t h0]
    dsimp only
    rw [step0_apply, step1_apply, step2_apply, reset0, reset1, reset2, h0, runs_zero, runs_zero, runs_zero]
    exact ⟨rfl, rfl, rfl⟩
  intro n
  induction n with
  | zero => intro hn r; exact first ⟨0, hn⟩ rfl r
  | succ n ih =>
    intro hn r
    by_cases h0 : (n + 1) % 8 = 0
    · exact first ⟨n + 1, hn⟩ h0 r
    · obtain ⟨i0, i1, i2⟩ := ih (Nat.lt_of_succ_lt hn) r
      have hq : (n + 1) % 8 = n % 8 + 1 := by omega
      rw [sc_next m c ⟨n + 1, hn⟩ h0]
      dsimp only
      rw [step0_apply, step1_apply, step2_apply, bOf_pred n hn h0, qrow_pred n hn h0 r]
      show _ + ∑ j : Fin 512, termN _ _ _ _ 0 (512 * ((n + 1) % 8) + j.val) = _
        ∧ _ + ∑ j : Fin 512, termN _ _ _ _ 1 (512 * ((n + 1) % 8) + j.val) = _
        ∧ _ + ∑ j : Fin 512, termN _ _ _ _ 2 (512 * ((n + 1) % 8) + j.val) = _
      rw [hq, runs_succ, runs_succ, runs_succ]
      exact ⟨congrArg (· + _) i0, congrArg (· + _) i1, congrArg (· + _) i2⟩

/-! ## What is written where the key tile is the last -/

/-- There each output's buffer is the finishing expression of its query column and its accumulator after that point. -/
theorem out8_eq (c : Dev nD) (t : Fin cfg0.N) (h7 : t.val % 8 = 7) :
    outAt0_8 m c t = fin0 (qx m c t) (scAt0 m c t.val t.isLt).1 := by
  rw [outAt0_8_C m c t (by omega) h7, sc_next m c t (by omega)]
  dsimp only
  exact out0_C_8_eq ..

theorem out9_eq (c : Dev nD) (t : Fin cfg0.N) (h7 : t.val % 8 = 7) :
    outAt0_9 m c t = fin1 (qy m c t) (scAt0 m c t.val t.isLt).2.1 := by
  rw [outAt0_9_C m c t (by omega) h7, sc_next m c t (by omega)]
  dsimp only
  exact out0_C_9_eq ..

theorem out10_eq (c : Dev nD) (t : Fin cfg0.N) (h7 : t.val % 8 = 7) :
    outAt0_10 m c t = fin2 (qz m c t) (scAt0 m c t.val t.isLt).2.2 := by
  rw [outAt0_10_C m c t (by omega) h7, sc_next m c t (by omega)]
  dsimp only
  exact out0_C_10_eq ..

/-- Where the key tile is the last, row `r` of output 8's buffer is the specification at the query point, coordinate x. -/
theorem out8_val (c : Dev nD) (t : Fin cfg0.N) (h7 : t.val % 8 = 7) (r : Fin 512) :
    outAt0_8 m c t (ix3 (0 : Fin 1) r (0 : Fin 1)) = G (XA m c) (RA m c) (ix3 (bOf t) (qrow t r) (0 : Fin 3)) := by
  rw [out8_eq m c t h7, G_apply]
  unfold fin0
  rw [out0_val, (acc_inv m c t.val t.isLt r).1, h7, runs_seven, sum_termN, qx_apply, mul_assoc]

/-- Output 9's: coordinate y. -/
theorem out9_val (c : Dev nD) (t : Fin cfg0.N) (h7 : t.val % 8 = 7) (r : Fin 512) :
    outAt0_9 m c t (ix3 (0 : Fin 1) r (0 : Fin 1)) = G (XA m c) (RA m c) (ix3 (bOf t) (qrow t r) (1 : Fin 3)) := by
  rw [out9_eq m c t h7, G_apply]
  unfold fin1
  rw [out1_val, (acc_inv m c t.val t.isLt r).2.1, h7, runs_seven, sum_termN, qy_apply, mul_assoc]

/-- Output 10's: coordinate z. -/
theorem out10_val (c : Dev nD) (t : Fin cfg0.N) (h7 : t.val % 8 = 7) (r : Fin 512) :
    outAt0_10 m c t (ix3 (0 : Fin 1) r (0 : Fin 1)) = G (XA m c) (RA m c) (ix3 (bOf t) (qrow t r) (2 : Fin 3)) := by
  rw [out10_eq m c t h7, G_apply]
  unfold fin2
  rw [out2_val, (acc_inv m c t.val t.isLt r).2.2, h7, runs_seven, sum_termN, qz_apply, mul_assoc]

end Cert.KernelIdeal.Val

end
-- ==== Proof.Final.lean ====
/-
  The three result arrays after the kernel: each output window's blocks, written back where the key tile is the last, tile
  its `[4, 4096, 1]` array — the block of batch `b` and query tile `q` is rows `512·q … 512·q + 511` of batch `b` —, so the array
  ends holding, at `(b, n, 0)`, the specification at `(b, n, k)` for its coordinate `k`.
-/
import proofs.«155617_j67714454389373_1_alg».proof.Proof.Accum
import Idealize.ShloMosaic.Lib.Pipeline.Value

set_option maxRecDepth 16384

noncomputable section

namespace Cert.KernelIdeal.Val

open Cert.KernelIdeal Cert.KernelIdeal.Gen Cert.KernelIdeal.Fr Cert.KernelIdeal.Glue Cert.Steric
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Coordinate `k` of the specification as a column array `[4, 4096, 1]`. -/
def res (k : Fin 3) (c : Dev nD) : Vec Ideal S4x4096x1 .f32 := fun i => G (XA m c) (RA m c) (ix3 (i 0) (i 1) k)

theorem res_apply (k : Fin 3) (c : Dev nD) (b : Fin 4) (n : Fin 4096) :
    res m k c (ix3 b n (0 : Fin 1)) = G (XA m c) (RA m c) (ix3 b n k) := rfl

/-! ## Block indices and the flushing point of an entry -/

/-- Every index of a block `[1, 512, 1]` is `(0, r, 0)`. -/
theorem blk_idx (y : S1x512x1.Idx) : ∃ r : Fin 512, y = ix3 (0 : Fin 1) r (0 : Fin 1) := by
  refine ⟨y 1, ?_⟩
  funext a
  match a with
  | ⟨0, _⟩ => exact Fin.ext (by have h : (y 0).val < 1 := (y 0).isLt; show (y 0).val = 0; omega)
  | ⟨1, _⟩ => rfl
  | ⟨2, _⟩ => exact Fin.ext (by have h : (y 2).val < 1 := (y 2).isLt; show (y 2).val = 0; omega)

/-- The grid point that writes back the block holding entry `(b, n, 0)`: batch `b`, query tile `n / 512`, the last key tile. -/
def lastPt (i : S4x4096x1.Idx) : Fin cfg0.N :=
  ⟨64 * (i 0).val + 8 * ((i 1).val / 512) + 7, by
    have h : cfg0.N = 256 := N_0
    have hi0 : (i 0).val < 4 := (i 0).isLt
    have hi1 : (i 1).val < 4096 := (i 1).isLt
    omega⟩
theorem lastPt_val (i : S4x4096x1.Idx) : (lastPt i).val = 64 * (i 0).val + 8 * ((i 1).val / 512) + 7 := rfl

/-! ## Output window 8: the x coordinate -/

/-- Window 8's block index at a grid point: batch, query tile, zero. -/
theorem idx_8 : ∀ t : Fin cfg0.N, win0_8.index t (0 : Fin 3) = t.val / 64 ∧ win0_8.index t (1 : Fin 3) = t.val / 8 % 8 ∧ win0_8.index t (2 : Fin 3) = 0 :=
  (by decide +kernel : ∀ t : Fin grid0.N, _)

/-- A column array read through window 8's block at a grid point: row `r` of the block is row `512·q + r` of batch `b`. -/
theorem blk8_read (u : Vec Ideal S4x4096x1 .f32) (t : Fin cfg0.N) (r : Fin 512) :
    ((cfg0.win 8).blk t).view.read (Elt Ideal) u (ix3 (0 : Fin 1) r (0 : Fin 1)) = u (ix3 (bOf t) (qrow t r) (0 : Fin 1)) := by
  show u (((cfg0.win 8).blk t).view.emb (ix3 (0 : Fin 1) r (0 : Fin 1))) = _
  refine congrArg _ ?_
  obtain ⟨e0, e1, e2⟩ := idx_8 t
  funext a; apply Fin.ext
  match a with
  | ⟨0, _⟩ => show win0_8.index t (0 : Fin 3) * 1 + 1 * 0 = t.val / 64; omega
  | ⟨1, _⟩ => show win0_8.index t (1 : Fin 3) * 512 + 1 * r.val = 512 * (t.val / 8 % 8) + r.val; omega
  | ⟨2, _⟩ => show win0_8.index t (2 : Fin 3) * 1 + 1 * 0 = 0; omega

/-- What a flushing point writes back is its block of the specification's column. -/
theorem flushed8_eq (c : Dev nD) (t : Fin cfg0.N) (hf : (cfg0.win 8).flush t = true) :
    (dats m 0 c).flushed 8 t = ((cfg0.win 8).blk t).view.read (Elt Ideal) (res m 0 c) := by
  have h7 : t.val % 8 = 7 := (flush0_8 t).mp hf
  show (cfg0.win 8).cut (grid0.coords t) ((dats m 0 c).after 8 t) = _
  rw [after0_8]
  funext y
  obtain ⟨r, rfl⟩ := blk_idx y
  exact ((out8_val m c t h7 r).trans (res_apply m 0 c (bOf t) (qrow t r)).symm).trans (blk8_read (res m 0 c) t r).symm

/-- An entry of the array is in a point's block iff each coordinate is in the block's range on its axis. -/
theorem mem_blk8 (t : Fin cfg0.N) (i : S4x4096x1.Idx) :
    i ∈ ((cfg0.win 8).blk t).view.set ↔ ∀ a : Fin 3, win0_8.index t a * S1x512x1.size a ≤ (i a).val ∧ (i a).val < win0_8.index t a * S1x512x1.size a + S1x512x1.size a := by
  show i ∈ ((View.whole main_v14_0).slice (win0_8.rect t)).set ↔ _
  rw [View.set_slice_whole, Rect.mem_set_unit]
  exact Iff.rfl

/-- Every entry `(b, n, 0)` is in the block of the flushing point of batch `b` and query tile `n / 512`. -/
theorem cover8 (i : S4x4096x1.Idx) : ∃ t : Fin cfg0.N, (cfg0.win 8).flush t = true ∧ i ∈ ((cfg0.win 8).blk t).view.set := by
  have hi0 : (i 0).val < 4 := (i 0).isLt
  have hi1 : (i 1).val < 4096 := (i 1).isLt
  have hi2 : (i 2).val < 1 := (i 2).isLt
  refine ⟨lastPt i, (flush0_8 _).mpr ?_, ?_⟩
  · rw [lastPt_val]; omega
  · rw [mem_blk8]
    obtain ⟨e0, e1, e2⟩ := idx_8 (lastPt i)
    rw [lastPt_val] at e0 e1
    intro a
    match a with
    | ⟨0, _⟩ => show win0_8.index (lastPt i) (0 : Fin 3) * 1 ≤ (i 0).val ∧ (i 0).val < win0_8.index (lastPt i) (0 : Fin 3) * 1 + 1; omega
    | ⟨1, _⟩ => show win0_8.index (lastPt i) (1 : Fin 3) * 512 ≤ (i 1).val ∧ (i 1).val < win0_8.index (lastPt i) (1 : Fin 3) * 512 + 512; omega
    | ⟨2, _⟩ => show win0_8.index (lastPt i) (2 : Fin 3) * 1 ≤ (i 2).val ∧ (i 2).val < win0_8.index (lastPt i) (2 : Fin 3) * 1 + 1; omega

/-! ## Output window 9: the y coordinate -/

/-- Window 9's block index at a grid point: batch, query tile, zero. -/
theorem idx_9 : ∀ t : Fin cfg0.N, win0_9.index t (0 : Fin 3) = t.val / 64 ∧ win0_9.index t (1 : Fin 3) = t.val / 8 % 8 ∧ win0_9.index t (2 : Fin 3) = 0 :=
  (by decide +kernel : ∀ t : Fin grid0.N, _)

/-- A column array read through window 9's block at a grid point: row `r` of the block is row `512·q + r` of batch `b`. -/
theorem blk9_read (u : Vec Ideal S4x4096x1 .f32) (t : Fin cfg0.N) (r : Fin 512) :
    ((cfg0.win 9).blk t).view.read (Elt Ideal) u (ix3 (0 : Fin 1) r (0 : Fin 1)) = u (ix3 (bOf t) (qrow t r) (0 : Fin 1)) := by
  show u (((cfg0.win 9).blk t).view.emb (ix3 (0 : Fin 1) r (0 : Fin 1))) = _
  refine congrArg _ ?_
  obtain ⟨e0, e1, e2⟩ := idx_9 t
  funext a; apply Fin.ext
  match a with
  | ⟨0, _⟩ => show win0_9.index t (0 : Fin 3) * 1 + 1 * 0 = t.val / 64; omega
  | ⟨1, _⟩ => show win0_9.index t (1 : Fin 3) * 512 + 1 * r.val = 512 * (t.val / 8 % 8) + r.val; omega
  | ⟨2, _⟩ => show win0_9.index t (2 : Fin 3) * 1 + 1 * 0 = 0; omega

/-- What a flushing point writes back is its block of the specification's column. -/
theorem flushed9_eq (c : Dev nD) (t : Fin cfg0.N) (hf : (cfg0.win 9).flush t = true) :
    (dats m 0 c).flushed 9 t = ((cfg0.win 9).blk t).view.read (Elt Ideal) (res m 1 c) := by
  have h7 : t.val % 8 = 7 := (flush0_9 t).mp hf
  show (cfg0.win 9).cut (grid0.coords t) ((dats m 0 c).after 9 t) = _
  rw [after0_9]
  funext y
  obtain ⟨r, rfl⟩ := blk_idx y
  exact ((out9_val m c t h7 r).trans (res_apply m 1 c (bOf t) (qrow t r)).symm).trans (blk9_read (res m 1 c) t r).symm

/-- An entry of the array is in a point's block iff each coordinate is in the block's range on its axis. -/
theorem mem_blk9 (t : Fin cfg0.N) (i : S4x4096x1.Idx) :
    i ∈ ((cfg0.win 9).blk t).view.set ↔ ∀ a : Fin 3, win0_9.index t a * S1x512x1.size a ≤ (i a).val ∧ (i a).val < win0_9.index t a * S1x512x1.size a + S1x512x1.size a := by
  show i ∈ ((View.whole main_v14_1).slice (win0_9.rect t)).set ↔ _
  rw [View.set_slice_whole, Rect.mem_set_unit]
  exact Iff.rfl

/-- Every entry `(b, n, 0)` is in the block of the flushing point of batch `b` and query tile `n / 512`. -/
theorem cover9 (i : S4x4096x1.Idx) : ∃ t : Fin cfg0.N, (cfg0.win 9).flush t = true ∧ i ∈ ((cfg0.win 9).blk t).view.set := by
  have hi0 : (i 0).val < 4 := (i 0).isLt
  have hi1 : (i 1).val < 4096 := (i 1).isLt
  have hi2 : (i 2).val < 1 := (i 2).isLt
  refine ⟨lastPt i, (flush0_9 _).mpr ?_, ?_⟩
  · rw [lastPt_val]; omega
  · rw [mem_blk9]
    obtain ⟨e0, e1, e2⟩ := idx_9 (lastPt i)
    rw [lastPt_val] at e0 e1
    intro a
    match a with
    | ⟨0, _⟩ => show win0_9.index (lastPt i) (0 : Fin 3) * 1 ≤ (i 0).val ∧ (i 0).val < win0_9.index (lastPt i) (0 : Fin 3) * 1 + 1; omega
    | ⟨1, _⟩ => show win0_9.index (lastPt i) (1 : Fin 3) * 512 ≤ (i 1).val ∧ (i 1).val < win0_9.index (lastPt i) (1 : Fin 3) * 512 + 512; omega
    | ⟨2, _⟩ => show win0_9.index (lastPt i) (2 : Fin 3) * 1 ≤ (i 2).val ∧ (i 2).val < win0_9.index (lastPt i) (2 : Fin 3) * 1 + 1; omega

/-! ## Output window 10: the z coordinate -/

/-- Window 10's block index at a grid point: batch, query tile, zero. -/
theorem idx_10 : ∀ t : Fin cfg0.N, win0_10.index t (0 : Fin 3) = t.val / 64 ∧ win0_10.index t (1 : Fin 3) = t.val / 8 % 8 ∧ win0_10.index t (2 : Fin 3) = 0 :=
  (by decide +kernel : ∀ t : Fin grid0.N, _)

/-- A column array read through window 10's block at a grid point: row `r` of the block is row `512·q + r` of batch `b`. -/
theorem blk10_read (u : Vec Ideal S4x4096x1 .f32) (t : Fin cfg0.N) (r : Fin 512) :
    ((cfg0.win 10).blk t).view.read (Elt Ideal) u (ix3 (0 : Fin 1) r (0 : Fin 1)) = u (ix3 (bOf t) (qrow t r) (0 : Fin 1)) := by
  show u (((cfg0.win 10).blk t).view.emb (ix3 (0 : Fin 1) r (0 : Fin 1))) = _
  refine congrArg _ ?_
  obtain ⟨e0, e1, e2⟩ := idx_10 t
  funext a; apply Fin.ext
  match a with
  | ⟨0, _⟩ => show win0_10.index t (0 : Fin 3) * 1 + 1 * 0 = t.val / 64; omega
  | ⟨1, _⟩ => show win0_10.index t (1 : Fin 3) * 512 + 1 * r.val = 512 * (t.val / 8 % 8) + r.val; omega
  | ⟨2, _⟩ => show win0_10.index t (2 : Fin 3) * 1 + 1 * 0 = 0; omega

/-- What a flushing point writes back is its block of the specification's column. -/
theorem flushed10_eq (c : Dev nD) (t : Fin cfg0.N) (hf : (cfg0.win 10).flush t = true) :
    (dats m 0 c).flushed 10 t = ((cfg0.win 10).blk t).view.read (Elt Ideal) (res m 2 c) := by
  have h7 : t.val % 8 = 7 := (flush0_10 t).mp hf
  show (cfg0.win 10).cut (grid0.coords t) ((dats m 0 c).after 10 t) = _
  rw [after0_10]
  funext y
  obtain ⟨r, rfl⟩ := blk_idx y
  exact ((out10_val m c t h7 r).trans (res_apply m 2 c (bOf t) (qrow t r)).symm).trans (blk10_read (res m 2 c) t r).symm

/-- An entry of the array is in a point's block iff each coordinate is in the block's range on its axis. -/
theorem mem_blk10 (t : Fin cfg0.N) (i : S4x4096x1.Idx) :
    i ∈ ((cfg0.win 10).blk t).view.set ↔ ∀ a : Fin 3, win0_10.index t a * S1x512x1.size a ≤ (i a).val ∧ (i a).val < win0_10.index t a * S1x512x1.size a + S1x512x1.size a := by
  show i ∈ ((View.whole main_v14_2).slice (win0_10.rect t)).set ↔ _
  rw [View.set_slice_whole, Rect.mem_set_unit]
  exact Iff.rfl

/-- Every entry `(b, n, 0)` is in the block of the flushing point of batch `b` and query tile `n / 512`. -/
theorem cover10 (i : S4x4096x1.Idx) : ∃ t : Fin cfg0.N, (cfg0.win 10).flush t = true ∧ i ∈ ((cfg0.win 10).blk t).view.set := by
  have hi0 : (i 0).val < 4 := (i 0).isLt
  have hi1 : (i 1).val < 4096 := (i 1).isLt
  have hi2 : (i 2).val < 1 := (i 2).isLt
  refine ⟨lastPt i, (flush0_10 _).mpr ?_, ?_⟩
  · rw [lastPt_val]; omega
  · rw [mem_blk10]
    obtain ⟨e0, e1, e2⟩ := idx_10 (lastPt i)
    rw [lastPt_val] at e0 e1
    intro a
    match a with
    | ⟨0, _⟩ => show win0_10.index (lastPt i) (0 : Fin 3) * 1 ≤ (i 0).val ∧ (i 0).val < win0_10.index (lastPt i) (0 : Fin 3) * 1 + 1; omega
    | ⟨1, _⟩ => show win0_10.index (lastPt i) (1 : Fin 3) * 512 ≤ (i 1).val ∧ (i 1).val < win0_10.index (lastPt i) (1 : Fin 3) * 512 + 512; omega
    | ⟨2, _⟩ => show win0_10.index (lastPt i) (2 : Fin 3) * 1 ≤ (i 2).val ∧ (i 2).val < win0_10.index (lastPt i) (2 : Fin 3) * 1 + 1; omega

/-! ## The three arrays after the run -/

theorem final8 (c : Dev nD) : (dats m 0 c).arrAt 8 cfg0.N = res m 0 c := by
  exact (dats m 0 c).arrAt_eq_of_cover 8 (res m 0 c) (flushed8_eq m c) cover8
theorem final9 (c : Dev nD) : (dats m 0 c).arrAt 9 cfg0.N = res m 1 c := by
  exact (dats m 0 c).arrAt_eq_of_cover 9 (res m 1 c) (flushed9_eq m c) cover9
theorem final10 (c : Dev nD) : (dats m 0 c).arrAt 10 cfg0.N = res m 2 c := by
  exact (dats m 0 c).arrAt_eq_of_cover 10 (res m 2 c) (flushed10_eq m c) cover10

end Cert.KernelIdeal.Val

end
-- ==== Proof.Tail.lean ====
/-
  The kernel program's result: the concatenation, along the last axis, of the three result arrays the kernel leaves — the
  specification's three coordinates as columns — is the specification.
-/
import proofs.«155617_j67714454389373_1_alg».proof.Proof.Final
import Idealize.ShloMosaic.Lib.StableHlo.Run
import Idealize.ShloMosaic.Lib.Pipeline.FrameSuffix

set_option maxRecDepth 16384

noncomputable section

namespace Cert.KernelIdeal.Val

open Cert.KernelIdeal Cert.KernelIdeal.Gen Cert.KernelIdeal.Fr Cert.KernelIdeal.Glue Cert.Steric
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- After the region each result array is read where the concatenation reads it: the window's array at its final contents. -/
theorem arr8 (c : Dev nD) :
    Pipeline.withArrays (cfgs 0).spec c (V0 m c) (fun w => (dats m 0 c).arrAt w (cfgs 0).N) (Proc.devRef .tc main_v14_0) = res m 0 c :=
  (Pipeline.withArrays_arr spec0 launch0.win.arr_inj c _ _ 8).trans (final8 m c)
theorem arr9 (c : Dev nD) :
    Pipeline.withArrays (cfgs 0).spec c (V0 m c) (fun w => (dats m 0 c).arrAt w (cfgs 0).N) (Proc.devRef .tc main_v14_1) = res m 1 c :=
  (Pipeline.withArrays_arr spec0 launch0.win.arr_inj c _ _ 9).trans (final9 m c)
theorem arr10 (c : Dev nD) :
    Pipeline.withArrays (cfgs 0).spec c (V0 m c) (fun w => (dats m 0 c).arrAt w (cfgs 0).N) (Proc.devRef .tc main_v14_2) = res m 2 c :=
  (Pipeline.withArrays_arr spec0 launch0.win.arr_inj c _ _ 10).trans (final10 m c)

/-- The program's result buffer after the run. -/
theorem kernel_result (c : Dev nD) :
    Pipeline.afterTail₀ cfgs (dats m) 0 (V0 m) [hostOps1] c main_v15 = G (XA m c) (RA m c) := by
  unfold Pipeline.afterTail₀
  show StableHlo.after hostOps1 _ (Proc.devRef .tc main_v15) = _
  after_results
  show concatenate S4x4096x3 2
      [⟨S4x4096x1, Pipeline.withArrays (cfgs 0).spec c (V0 m c) (fun w => (dats m 0 c).arrAt w (cfgs 0).N) (Proc.devRef .tc main_v14_0)⟩,
       ⟨S4x4096x1, Pipeline.withArrays (cfgs 0).spec c (V0 m c) (fun w => (dats m 0 c).arrAt w (cfgs 0).N) (Proc.devRef .tc main_v14_1)⟩,
       ⟨S4x4096x1, Pipeline.withArrays (cfgs 0).spec c (V0 m c) (fun w => (dats m 0 c).arrAt w (cfgs 0).N) (Proc.devRef .tc main_v14_2)⟩]
      Facts₀.concatenates_S4x4096x1_S4x4096x1_S4x4096x1_S4x4096x3_d2 = _
  rw [arr8, arr9, arr10]
  funext j
  obtain ⟨b, n, k, rfl⟩ : ∃ (b : Fin 4) (n : Fin 4096) (k : Fin 3), j = ix3 b n k := ⟨j 0, j 1, j 2, eq_ix3 j⟩
  rw [concat_apply]
  fin_cases k <;> exact res_apply m _ c b n

end Cert.KernelIdeal.Val

end
-- ==== Proof.RefImports.lean ====
/-
  The reference program's run and its stage-by-stage reading, brought into scope for the modules that state what the
  reference computes.
-/
import proofs.«155617_j67714454389373_1_alg».proof.Proof.Gen.ReferenceIdeal.Run
import proofs.«155617_j67714454389373_1_alg».proof.Proof.Gen.ReferenceIdeal.Read
-- ==== Proof.RefValue.lean ====
/-
  The reference program's result is the function `G` of the two argument arrays.
-/
import proofs.«155617_j67714454389373_1_alg».proof.Proof.RefImports
import proofs.«155617_j67714454389373_1_alg».proof.Proof.Spec
import proofs.«155617_j67714454389373_1_alg».proof.Proof.Algebra
import Mathlib.Algebra.BigOperators.Fin

noncomputable section

open scoped BigOperators

namespace Cert.ReferenceIdeal.RefValue

open Cert.ReferenceIdeal Cert.ReferenceIdeal.Gen Cert.ReferenceIdeal.Read Cert.Steric
open Idealize.ShloMosaic Idealize.ShloMosaic.ValueIdx

/-- The zero word denotes zero. -/
theorem zero_word : Ideal.ofBits .f32 0x00000000#32 = 0 := zeroL_eq

/-- The difference stage at the pair `(n, m)` of batch `b`, coordinate `c`: the two broadcasts read `X` at `(b, n, c)` and at
    `(b, m, c)`. -/
theorem v4_at (X : FVec Ideal S4x4096x3 .f32) (b : Fin 4) (n m : Fin 4096) (c : Fin 3) :
    val_main_v4 (F := Ideal) X (ix4 b n m c) = X (ix3 b n c) - X (ix3 b m c) := by
  have h1 : idx_main_v0 (idx_main_v2 (ix4 b n m c)) = ix3 b n c :=
    funext fun a => by match a with | ⟨0, _⟩ => rfl | ⟨1, _⟩ => rfl | ⟨2, _⟩ => rfl
  have h2 : idx_main_v1 (idx_main_v3 (ix4 b n m c)) = ix3 b m c :=
    funext fun a => by match a with | ⟨0, _⟩ => rfl | ⟨1, _⟩ => rfl | ⟨2, _⟩ => rfl
  rw [val_main_v4_apply, val_main_v2_apply, val_main_v0_apply, val_main_v3_apply, val_main_v1_apply, h1, h2,
    Ideal.subf_def]

/-- The squared distance stage: the zero word plus the three squares, which is `d2s` of the three differences. -/
theorem v6_at (X : FVec Ideal S4x4096x3 .f32) (b : Fin 4) (n m : Fin 4096) :
    val_main_v6 (F := Ideal) X (ix3 b n m)
      = d2s (X (ix3 b n (0 : Fin 3)) - X (ix3 b m (0 : Fin 3))) (X (ix3 b n (1 : Fin 3)) - X (ix3 b m (1 : Fin 3)))
          (X (ix3 b n (2 : Fin 3)) - X (ix3 b m (2 : Fin 3))) := by
  have h : ∀ k : Fin 3, idx_main_v6 (ix3 b n m) k = ix4 b n m k := fun k =>
    funext fun a => by match a with | ⟨0, _⟩ => rfl | ⟨1, _⟩ => rfl | ⟨2, _⟩ => rfl | ⟨3, _⟩ => rfl
  rw [val_main_v6_apply, val_main_cst_apply, Ideal.ofBits_def, zero_word, zero_add, Fin.sum_univ_three]
  simp only [h, val_main_v5_apply, v4_at, Ideal.mulf_def]
  rfl

/-- The distance stage is `dist` of the squared distance. -/
theorem v13_at (X : FVec Ideal S4x4096x3 .f32) (b : Fin 4) (n m : Fin 4096) :
    val_main_v13 (F := Ideal) X (ix3 b n m) = dist (val_main_v6 (F := Ideal) X (ix3 b n m)) := by
  rw [val_main_v13_apply, val_main_v8_apply, val_main_v7_apply, val_main_cst_0_apply, val_main_v12_apply,
    val_main_v11_apply, val_main_v10_apply, val_main_v9_apply, val_main_cst_1_apply, val_main_call0_v1_apply,
    val_main_call0_v0_apply, val_main_cst_2_apply, val_main_call1_v1_apply, val_main_call1_v0_apply,
    val_main_cst_3_apply, Ideal.hostUnary_sqrt_def]
  rfl

/-- The penalty stage is `pen` of the squared distance and the sum of the two radii. -/
theorem v22_at (X : FVec Ideal S4x4096x3 .f32) (R : FVec Ideal S4x4096 .f32) (b : Fin 4) (n m : Fin 4096) :
    val_main_v22 (F := Ideal) X R (ix3 b n m)
      = pen (val_main_v6 (F := Ideal) X (ix3 b n m)) (R (ix2 b n) + R (ix2 b m)) := by
  have h1 : idx_main_v14 (idx_main_v16 (ix3 b n m)) = ix2 b n :=
    funext fun a => by match a with | ⟨0, _⟩ => rfl | ⟨1, _⟩ => rfl
  have h2 : idx_main_v15 (idx_main_v17 (ix3 b n m)) = ix2 b m :=
    funext fun a => by match a with | ⟨0, _⟩ => rfl | ⟨1, _⟩ => rfl
  rw [val_main_v22_apply, val_main_v21_apply, val_main_v20_apply, val_main_v19_apply, val_main_cst_4_apply,
    val_main_v18_apply, val_main_v16_apply, val_main_v14_apply, val_main_v17_apply, val_main_v15_apply, h1, h2,
    v13_at, val_main_call2_v0_apply, val_main_call2_cst_apply]
  rfl

/-- The clipped difference stage is `clip` of the difference. -/
theorem v24_at (X : FVec Ideal S4x4096x3 .f32) (b : Fin 4) (n m : Fin 4096) (c : Fin 3) :
    val_main_v24 (F := Ideal) X (ix4 b n m c) = clip (X (ix3 b n c) - X (ix3 b m c)) := by
  rw [val_main_v24_apply, val_main_call3_v4_apply, val_main_call3_v3_apply, val_main_cst_6_apply,
    val_main_call3_v2_apply, val_main_call3_v1_apply, val_main_call3_v0_apply, val_main_cst_5_apply, v4_at]
  rfl

/-- The product stage is the pair's contribution `term`. -/
theorem v26_at (X : FVec Ideal S4x4096x3 .f32) (R : FVec Ideal S4x4096 .f32) (b : Fin 4) (n m : Fin 4096) (c : Fin 3) :
    val_main_v26 (F := Ideal) X R (ix4 b n m c) = term X R b n m c := by
  have h : idx_main_v23 (idx_main_v25 (ix4 b n m c)) = ix3 b n m :=
    funext fun a => by match a with | ⟨0, _⟩ => rfl | ⟨1, _⟩ => rfl | ⟨2, _⟩ => rfl
  rw [val_main_v26_apply, val_main_v25_apply, val_main_v23_apply, h, v22_at, v6_at, v24_at, Ideal.mulf_def]
  rfl

/-- The last stage of the reference, as a function of the two arguments, is `G`. -/
theorem ref_eq (X : FVec Ideal S4x4096x3 .f32) (R : FVec Ideal S4x4096 .f32) :
    val_main_v32 (F := Ideal) X R = G X R := by
  funext j
  obtain ⟨b, n, c, rfl⟩ : ∃ b n c, j = ix3 b n c := ⟨j 0, j 1, j 2, eq_ix3 j⟩
  have h : ∀ k : Fin 4096, idx_main_v27 (ix3 b n c) k = ix4 b n k c := fun k =>
    funext fun a => by match a with | ⟨0, _⟩ => rfl | ⟨1, _⟩ => rfl | ⟨2, _⟩ => rfl | ⟨3, _⟩ => rfl
  rw [G_apply, val_main_v32_apply, val_main_v31_apply, val_main_v30_apply, val_main_cst_9_apply, val_main_v29_apply,
    val_main_v28_apply, val_main_cst_8_apply, val_main_v27_apply, val_main_cst_7_apply, Ideal.ofBits_def,
    Ideal.ofBits_def, Ideal.ofBits_def, zero_word, zero_add, Ideal.hostDivf_def, Ideal.mulf_def, Ideal.addf_def]
  simp only [h, v26_at]
  rw [div_nL]
  rfl

end Cert.ReferenceIdeal.RefValue

end
-- ==== Proof.lean ====
/-
  The certificate: a batched point cloud's steric relaxation step — each point moved by a tenth of the mean, over the 4096
  points of its batch, of the pair penalty times the clipped coordinate difference — computed by a pipelined kernel that
  tiles the 4096 × 4096 pairs into 512 × 512 blocks and accumulates the key-axis sum over eight grid steps, against the
  plain array program.

  Both idealized programs compute the one function `G` of the two argument arrays (Proof/Spec.lean) on the extended reals:
  the kernel's accumulators run through the partial sums over runs of 512 partners and its finishing expression multiplies by
  `2⁻¹²` where the reference divides by `4096`; the reference's squared distance is the three-term sum the kernel adds up in
  order.  Every operation in between (compare, select, root, maximum, minimum, product) is the same on both sides, and only
  associativity and commutativity of sum and product are used, which hold on all extended reals: the precondition is not
  opened.  The frames: each kernel program runs to the end by the launch theorem of its one pipelined region with the
  concatenation after it, its two argument arrays being no window's array and never written; the reference's by its run.
  The idealization rewrote nothing, so `preserves` asks nothing.
-/
import proofs.«155617_j67714454389373_1_alg».proof.Defs
import proofs.«155617_j67714454389373_1_alg».proof.Proof.Gen.Kernel
import proofs.«155617_j67714454389373_1_alg».proof.Proof.Gen.KernelIdeal
import proofs.«155617_j67714454389373_1_alg».proof.Proof.Gen.ReferenceIdeal
import proofs.«155617_j67714454389373_1_alg».proof.Proof.Gen.Pre_finite_inputs
import proofs.«155617_j67714454389373_1_alg».proof.Proof.FrameKernel.Frame
import proofs.«155617_j67714454389373_1_alg».proof.Proof.FrameKernelIdeal.Frame
import proofs.«155617_j67714454389373_1_alg».proof.Proof.Tail
import proofs.«155617_j67714454389373_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Fr.frame m ρ

/-- The idealized kernel program runs and keeps its arguments. -/
theorem frame_ki : Cert.frame_KernelIdeal := fun m ρ _ => Cert.KernelIdeal.Fr.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the specification `G` of the arguments in their
    result buffers, and with the arguments unchanged. -/
theorem algebraic : Cert.algebraic_KernelIdeal_ReferenceIdeal := by
  intro m ρ m' ρ' _ hagree
  refine ⟨fun c => Cert.Steric.G (Cert.KernelIdeal.Glue.XA m c) (Cert.KernelIdeal.Glue.RA m c), ?_, ?_⟩
  · refine (θ_run Cert.KernelIdeal.defs _ _).mono (fun r h c => ⟨?_, ?_, ?_⟩) (Cert.KernelIdeal.Fr.run_main (F := Ideal) m ρ)
    · exact ((h c).2 Cert.KernelIdeal.main_v15 (Pipeline.mem_restRefs_of Cert.KernelIdeal.main_v15 (by decide) (by decide))).trans
        (Cert.KernelIdeal.Val.kernel_result m c)
    · exact ((h c).2 Cert.KernelIdeal.main_arg0 (Pipeline.mem_restRefs_of Cert.KernelIdeal.main_arg0 (by decide) (by decide))).trans
        (Cert.KernelIdeal.Fr.W_main_arg0 m (Cert.KernelIdeal.Fr.dats m) c)
    · exact ((h c).2 Cert.KernelIdeal.main_arg1 (Pipeline.mem_restRefs_of Cert.KernelIdeal.main_arg1 (by decide) (by decide))).trans
        (Cert.KernelIdeal.Fr.W_main_arg1 m (Cert.KernelIdeal.Fr.dats m) c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
